-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x22 : Shape := ⟨2, ![2000000, 22]⟩
abbrev S2000000 : Shape := ⟨1, ![2000000]⟩
abbrev S22x22 : Shape := ⟨2, ![22, 22]⟩
abbrev S6x6 : Shape := ⟨2, ![6, 6]⟩
abbrev S22 : Shape := ⟨1, ![22]⟩
abbrev S_ : Shape := ⟨0, ![]⟩

class Facts : Prop where
  bcast_S_S2000000x22 : S_.BroadcastsInDim S2000000x22 (![] : Fin 0 → Fin S2000000x22.rank)
  reducesTo_S2000000x22_S_d0_1 : S2000000x22.ReducesTo [0, 1] S_
  h_S_ : 0 < S_.numel
  bcast_S_S22x22 : S_.BroadcastsInDim S22x22 (![] : Fin 0 → Fin S22x22.rank)
  reducesTo_S22x22_S_d0_1 : S22x22.ReducesTo [0, 1] S_
  bcast_S_S6x6 : S_.BroadcastsInDim S6x6 (![] : Fin 0 → Fin S6x6.rank)
  reducesTo_S6x6_S_d0_1 : S6x6.ReducesTo [0, 1] S_
  bcast_S_S2000000 : S_.BroadcastsInDim S2000000 (![] : Fin 0 → Fin S2000000.rank)
  reducesTo_S2000000_S_d0 : S2000000.ReducesTo [0] S_

variable [Facts]

def fn_part1 {F : FTy → Type} [FloatOps F] (main_arg1 : IVec S2000000 32) (main_v13 : IVec S_ 1) (main_v15 : IVec S2000000 1) (main_c_5 : IVec S_ 32) : IVec S_ 1 :=
  let main_v16 : IVec S2000000 32 := broadcastInDim S2000000 ![] bcast_S_S2000000 main_c_5
  let main_v17 : IVec S2000000 1 := cmpi .slt main_arg1 main_v16
  let main_v18 : IVec S2000000 1 := andi main_v15 main_v17
  let main_c_6 : IVec S_ 1 := constantI S_ 1 1#1
  let main_v19 : IVec S_ 1 := (fun x v => Host.reduce IntOp.andi x v reducesTo_S2000000_S_d0 h_S_) main_v18 main_c_6
  let main_v20 : IVec S_ 1 := andi main_v13 main_v19
  main_v20

def fn {F : FTy → Type} [FloatOps F] (main_arg0 : FVec F S2000000x22 .f32) (main_arg1 : IVec S2000000 32) (main_arg2 : FVec F S22x22 .f32) (main_arg3 : FVec F S6x6 .f32) (main_arg4 : IVec S22 32) : IVec S_ 1 :=
  let main_v0 : FVec F S2000000x22 .f32 := Host.absf main_arg0
  let main_cst : FVec F S_ .f32 := constant S_ .f32 0x7F800000#32
  let main_v1 : FVec F S2000000x22 .f32 := broadcastInDim S2000000x22 ![] bcast_S_S2000000x22 main_cst
  let main_v2 : IVec S2000000x22 1 := cmpf .olt main_v0 main_v1
  let main_c : IVec S_ 1 := constantI S_ 1 1#1
  let main_v3 : IVec S_ 1 := (fun x v => Host.reduce IntOp.andi x v reducesTo_S2000000x22_S_d0_1 h_S_) main_v2 main_c
  let main_v4 : FVec F S22x22 .f32 := Host.absf main_arg2
  let main_cst_0 : FVec F S_ .f32 := constant S_ .f32 0x7F800000#32
  let main_v5 : FVec F S22x22 .f32 := broadcastInDim S22x22 ![] bcast_S_S22x22 main_cst_0
  let main_v6 : IVec S22x22 1 := cmpf .olt main_v4 main_v5
  let main_c_1 : IVec S_ 1 := constantI S_ 1 1#1
  let main_v7 : IVec S_ 1 := (fun x v => Host.reduce IntOp.andi x v reducesTo_S22x22_S_d0_1 h_S_) main_v6 main_c_1
  let main_v8 : IVec S_ 1 := andi main_v3 main_v7
  let main_v9 : FVec F S6x6 .f32 := Host.absf main_arg3
  let main_cst_2 : FVec F S_ .f32 := constant S_ .f32 0x7F800000#32
  let main_v10 : FVec F S6x6 .f32 := broadcastInDim S6x6 ![] bcast_S_S6x6 main_cst_2
  let main_v11 : IVec S6x6 1 := cmpf .olt main_v9 main_v10
  let main_c_3 : IVec S_ 1 := constantI S_ 1 1#1
  let main_v12 : IVec S_ 1 := (fun x v => Host.reduce IntOp.andi x v reducesTo_S6x6_S_d0_1 h_S_) main_v11 main_c_3
  let main_v13 : IVec S_ 1 := andi main_v8 main_v12
  let main_c_4 : IVec S_ 32 := constantI S_ 32 0#32
  let main_v14 : IVec S2000000 32 := broadcastInDim S2000000 ![] bcast_S_S2000000 main_c_4
  let main_v15 : IVec S2000000 1 := cmpi .sge main_arg1 main_v14
  let main_c_5 : IVec S_ 32 := constantI S_ 32 22#32
  fn_part1 (F := F) main_arg1 main_v13 main_v15 main_c_5
-- ==== Kernel.lean ====
abbrev S2000000x22 : Shape := ⟨2, ![2000000, 22]⟩
abbrev S2000000 : Shape := ⟨1, ![2000000]⟩
abbrev S22x22 : Shape := ⟨2, ![22, 22]⟩
abbrev S6x6 : Shape := ⟨2, ![6, 6]⟩
abbrev S22 : Shape := ⟨1, ![22]⟩
abbrev S_ : Shape := ⟨0, ![]⟩
abbrev S22x1 : Shape := ⟨2, ![22, 1]⟩
abbrev S22x6 : Shape := ⟨2, ![22, 6]⟩
abbrev S2000000x1 : Shape := ⟨2, ![2000000, 1]⟩
abbrev S1x128 : Shape := ⟨2, ![1, 128]⟩
abbrev S5000x22 : Shape := ⟨2, ![5000, 22]⟩
abbrev S5000x1 : Shape := ⟨2, ![5000, 1]⟩
abbrev S5000 : Shape := ⟨1, ![5000]⟩
abbrev S1x22 : Shape := ⟨2, ![1, 22]⟩
abbrev S1 : Shape := ⟨1, ![1]⟩
abbrev S1x1 : Shape := ⟨2, ![1, 1]⟩

abbrev nBuf : Space → Nat
  | .hbm => 41
  | .vmem => 7
  | .smem => 0
  | _ => 0

abbrev bufTy : (tb : Table) → Fin (tcTables nBuf tb) → BufTy
  | .hbm, ⟨0, _⟩ => ⟨S2000000x22, .f32⟩
  | .hbm, ⟨1, _⟩ => ⟨S2000000, .i32⟩
  | .hbm, ⟨2, _⟩ => ⟨S22x22, .f32⟩
  | .hbm, ⟨3, _⟩ => ⟨S6x6, .f32⟩
  | .hbm, ⟨4, _⟩ => ⟨S22, .i32⟩
  | .hbm, ⟨5, _⟩ => ⟨S_, .i32⟩
  | .hbm, ⟨6, _⟩ => ⟨S22, .i32⟩
  | .hbm, ⟨7, _⟩ => ⟨S22, .i1⟩
  | .hbm, ⟨8, _⟩ => ⟨S_, .i32⟩
  | .hbm, ⟨9, _⟩ => ⟨S22, .i32⟩
  | .hbm, ⟨10, _⟩ => ⟨S22, .i32⟩
  | .hbm, ⟨11, _⟩ => ⟨S22, .i32⟩
  | .hbm, ⟨12, _⟩ => ⟨S22x1, .i32⟩
  | .hbm, ⟨13, _⟩ => ⟨S22x6, .f32⟩
  | .hbm, ⟨14, _⟩ => ⟨S_, .i32⟩
  | .hbm, ⟨15, _⟩ => ⟨S22, .i32⟩
  | .hbm, ⟨16, _⟩ => ⟨S22, .i1⟩
  | .hbm, ⟨17, _⟩ => ⟨S_, .i32⟩
  | .hbm, ⟨18, _⟩ => ⟨S22, .i32⟩
  | .hbm, ⟨19, _⟩ => ⟨S22, .i32⟩
  | .hbm, ⟨20, _⟩ => ⟨S22, .i32⟩
  | .hbm, ⟨21, _⟩ => ⟨S22x1, .i32⟩
  | .hbm, ⟨22, _⟩ => ⟨S22x22, .f32⟩
  | .hbm, ⟨23, _⟩ => ⟨S_, .f32⟩
  | .hbm, ⟨24, _⟩ => ⟨S22x22, .f32⟩
  | .hbm, ⟨25, _⟩ => ⟨S22x22, .f32⟩
  | .hbm, ⟨26, _⟩ => ⟨S_, .f32⟩
  | .hbm, ⟨27, _⟩ => ⟨S22x22, .f32⟩
  | .hbm, ⟨28, _⟩ => ⟨S22x22, .f32⟩
  | .hbm, ⟨29, _⟩ => ⟨S22x22, .f32⟩
  | .hbm, ⟨30, _⟩ => ⟨S2000000x1, .i32⟩
  | .hbm, ⟨31, _⟩ => ⟨S1x128, .f32⟩
  | .hbm, ⟨32, _⟩ => ⟨S1x1, .f32⟩
  | .hbm, ⟨33, _⟩ => ⟨S_, .f32⟩
  | .hbm, ⟨34, _⟩ => ⟨S1x1, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S5000x22, .f32⟩
  | .local _ .vmem, ⟨1, _⟩ => ⟨S5000x22, .f32⟩
  | .local _ .vmem, ⟨2, _⟩ => ⟨S5000x1, .i32⟩
  | .local _ .vmem, ⟨3, _⟩ => ⟨S5000x1, .i32⟩
  | .local _ .vmem, ⟨4, _⟩ => ⟨S22x22, .f32⟩
  | .local _ .vmem, ⟨5, _⟩ => ⟨S1x128, .f32⟩
  | .local _ .vmem, ⟨6, _⟩ => ⟨S1x128, .f32⟩
  | _, _ => ⟨S2000000x22, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![400], ![false]⟩

def k0_cond2 (i : grid0.Coords) : BitVec 1 :=
  let arg0 : BitVec 32 := BitVec.ofNat 32 (i 0).val
  let c399_i32 : BitVec 32 := 399#32
  let v55 : BitVec 1 := Scalar.cmpi .eq arg0 c399_i32
  let v56 : BitVec 32 := Scalar.extui v55
  let c0_i32_19 : BitVec 32 := 0#32
  let v57 : BitVec 1 := Scalar.cmpi .ne v56 c0_i32_19
  v57

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x22 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S22x22 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  bcast_S_S22 : S_.BroadcastsInDim S22 (![] : Fin 0 → Fin S22.rank)
  bcast_S22_S22x1_0 : S22.BroadcastsInDim S22x1 (![0] : Fin 1 → Fin S22x1.rank)
  bcast_S_S22x22 : S_.BroadcastsInDim S22x22 (![] : Fin 0 → Fin S22x22.rank)
  shapeCasts_S2000000_S2000000x1 : S2000000.ShapeCasts S2000000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x22_S5000x22_0_0 : ∀ a, (![0, 0] : Fin 2 → Nat) a + S5000x22.size a ≤ S5000x22.size a
  h_S5000x22 : 0 < S5000x22.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  reduces_S5000x22_S5000 : S5000x22.Reduces [1] S5000
  shapeCasts_S5000_S5000x1 : S5000.ShapeCasts S5000x1
  broadcasts_S5000x1_S5000x22 : S5000x1.Broadcasts S5000x22
  iota_S1x22_d1_w32 : S1x22.Iotas .tc 32 [1]
  broadcasts_S1x22_S5000x22 : S1x22.Broadcasts S5000x22
  natLt_1_32 : 1 < 32
  inb_S22x22_S22x22_0_0 : ∀ a, (![0, 0] : Fin 2 → Nat) a + S22x22.size a ≤ S22x22.size a
  h_S22x22 : 0 < S22x22.numel
  shapeCasts_S22x22_S22x22 : S22x22.ShapeCasts S22x22
  reduces_S5000x1_S1 : S5000x1.Reduces [0] S1
  shapeCasts_S1_S1x1 : S1.ShapeCasts S1x1
  iota_S1x128_d1_w32 : S1x128.Iotas .tc 32 [1]
  shapeCasts_S1x1_S1x1 : S1x1.ShapeCasts S1x1
  broadcasts_S1x1_S1x128 : S1x1.Broadcasts S1x128
  slices_S1x128_S1x1_0_0 : S1x128.Slices ![0, 0] S1x1
  shapeCasts_S1x1_S_ : S1x1.ShapeCasts S_
  slices_S1x128_S1x1_0_1 : S1x128.Slices ![0, 1] S1x1
  gather_S6x6_S22x1_S22x6_1_0_n_n_0_1_16_wf : GatherDims.WF S6x6 S22x1 S22x6 [1] [0] [] [0] [] 1 ![1, 6]
  gather_S22x6_S22x1_S22x22_0_1_n_n_1_1_221_wf : GatherDims.WF S22x6 S22x1 S22x22 [0] [1] [] [1] [] 1 ![22, 1]
  dot_S5000x22_S22x22_S5000x22_1_0_0_1_n_n_wf : DotDims.WF S5000x22 S22x22 S5000x22 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x22.size a ≤ S2000000x22.size a
  hwx0_0 : ∀ i : grid0.Coords, EltTy.bits .f32 = 32 ∨ (Rect.block (s := S2000000x22) S5000x22.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S2000000x1.size a
  hwx0_1 : ∀ i : grid0.Coords, EltTy.bits .i32 = 32 ∨ (Rect.block (s := S2000000x1) S5000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S22x22.size a ≤ S22x22.size a
  hwx0_2 : ∀ i : grid0.Coords, EltTy.bits .f32 = 32 ∨ (Rect.block (s := S22x22) S22x22.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)

variable [Facts₀]

def gather_S6x6_S22x1_S22x6_1_0_n_n_0_1_16 : GatherDims S6x6 S22x1 S22x6 where
  offsetDims := [1]
  collapsedSliceDims := [0]
  operandBatchingDims := []
  startIndicesBatchingDims := []
  startIndexMap := [0]
  indexVectorDim := 1
  sliceSizes := ![1, 6]
  wf := gather_S6x6_S22x1_S22x6_1_0_n_n_0_1_16_wf
def gather_S22x6_S22x1_S22x22_0_1_n_n_1_1_221 : GatherDims S22x6 S22x1 S22x22 where
  offsetDims := [0]
  collapsedSliceDims := [1]
  operandBatchingDims := []
  startIndicesBatchingDims := []
  startIndexMap := [1]
  indexVectorDim := 1
  sliceSizes := ![22, 1]
  wf := gather_S22x6_S22x1_S22x22_0_1_n_n_1_1_221_wf
def dot_S5000x22_S22x22_S5000x22_1_0_0_1_n_n : DotDims S5000x22 S22x22 S5000x22 where
  lhsContracting := [1]
  rhsContracting := [0]
  lhsNonContracting := [0]
  rhsNonContracting := [1]
  lhsBatch := []
  rhsBatch := []
  wf := dot_S5000x22_S22x22_S5000x22_1_0_0_1_n_n_wf

abbrev win0_0 : Pipeline.Window sig grid0 :=
  Pipeline.Window.ofSpec (Memref.whole main_arg0) S5000x22.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S22x22.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2000000x22 : Shape := ⟨2, ![2000000, 22]⟩
abbrev S2000000 : Shape := ⟨1, ![2000000]⟩
abbrev S22x22 : Shape := ⟨2, ![22, 22]⟩
abbrev S6x6 : Shape := ⟨2, ![6, 6]⟩
abbrev S22 : Shape := ⟨1, ![22]⟩
abbrev S_ : Shape := ⟨0, ![]⟩
abbrev S2000000x1 : Shape := ⟨2, ![2000000, 1]⟩
abbrev S2000000x1x1 : Shape := ⟨3, ![2000000, 1, 1]⟩
abbrev S1 : Shape := ⟨1, ![1]⟩
abbrev S1x1x1 : Shape := ⟨3, ![1, 1, 1]⟩
abbrev S2000000x6 : Shape := ⟨2, ![2000000, 6]⟩
abbrev S22x1 : Shape := ⟨2, ![22, 1]⟩

abbrev nBuf : Space → Nat
  | .hbm => 105
  | .vmem => 0
  | .smem => 0
  | _ => 0

abbrev bufTy : (tb : Table) → Fin (tcTables nBuf tb) → BufTy
  | .hbm, ⟨0, _⟩ => ⟨S2000000x22, .f32⟩
  | .hbm, ⟨1, _⟩ => ⟨S2000000, .i32⟩
  | .hbm, ⟨2, _⟩ => ⟨S22x22, .f32⟩
  | .hbm, ⟨3, _⟩ => ⟨S6x6, .f32⟩
  | .hbm, ⟨4, _⟩ => ⟨S22, .i32⟩
  | .hbm, ⟨5, _⟩ => ⟨S_, .f32⟩
  | .hbm, ⟨6, _⟩ => ⟨S2000000, .f32⟩
  | .hbm, ⟨7, _⟩ => ⟨S_, .f32⟩
  | .hbm, ⟨8, _⟩ => ⟨S2000000, .f32⟩
  | .hbm, ⟨9, _⟩ => ⟨S2000000, .f32⟩
  | .hbm, ⟨10, _⟩ => ⟨S2000000x1, .f32⟩
  | .hbm, ⟨11, _⟩ => ⟨S2000000x22, .f32⟩
  | .hbm, ⟨12, _⟩ => ⟨S2000000x22, .f32⟩
  | .hbm, ⟨13, _⟩ => ⟨S2000000x22, .f32⟩
  | .hbm, ⟨14, _⟩ => ⟨S_, .f32⟩
  | .hbm, ⟨15, _⟩ => ⟨S2000000, .f32⟩
  | .hbm, ⟨16, _⟩ => ⟨S2000000x1, .f32⟩
  | .hbm, ⟨17, _⟩ => ⟨S2000000x1, .f32⟩
  | .hbm, ⟨18, _⟩ => ⟨S2000000x22, .f32⟩
  | .hbm, ⟨19, _⟩ => ⟨S2000000x22, .f32⟩
  | .hbm, ⟨20, _⟩ => ⟨S2000000x1, .i32⟩
  | .hbm, ⟨21, _⟩ => ⟨S_, .i32⟩
  | .hbm, ⟨22, _⟩ => ⟨S2000000x1, .i32⟩
  | .hbm, ⟨23, _⟩ => ⟨S2000000x1, .i1⟩
  | .hbm, ⟨24, _⟩ => ⟨S_, .i32⟩
  | .hbm, ⟨25, _⟩ => ⟨S2000000x1, .i32⟩
  | .hbm, ⟨26, _⟩ => ⟨S2000000x1, .i32⟩
  | .hbm, ⟨27, _⟩ => ⟨S2000000x1, .i32⟩
  | .hbm, ⟨28, _⟩ => ⟨S2000000x1x1, .i32⟩
  | .hbm, ⟨29, _⟩ => ⟨S1, .i32⟩
  | .hbm, ⟨30, _⟩ => ⟨S_, .i32⟩
  | .hbm, ⟨31, _⟩ => ⟨S2000000x1x1, .i32⟩
  | .hbm, ⟨32, _⟩ => ⟨S2000000x1x1, .i1⟩
  | .hbm, ⟨33, _⟩ => ⟨S1x1x1, .i32⟩
  | .hbm, ⟨34, _⟩ => ⟨S2000000x1x1, .i32⟩
  | .hbm, ⟨35, _⟩ => ⟨S2000000x1x1, .i1⟩
  | .hbm, ⟨36, _⟩ => ⟨S2000000x1x1, .i1⟩
  | .hbm, ⟨37, _⟩ => ⟨S_, .i1⟩
  | .hbm, ⟨38, _⟩ => ⟨S2000000x1, .i1⟩
  | .hbm, ⟨39, _⟩ => ⟨S2000000x1, .f32⟩
  | .hbm, ⟨40, _⟩ => ⟨S_, .f32⟩
  | .hbm, ⟨41, _⟩ => ⟨S2000000x1, .f32⟩
  | .hbm, ⟨42, _⟩ => ⟨S2000000x1, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S2000000x22, .f32⟩
  | .hbm, ⟨49, _⟩ => ⟨S_, .i32⟩
  | .hbm, ⟨50, _⟩ => ⟨S2000000, .i32⟩
  | .hbm, ⟨51, _⟩ => ⟨S2000000, .i1⟩
  | .hbm, ⟨52, _⟩ => ⟨S_, .i32⟩
  | .hbm, ⟨53, _⟩ => ⟨S2000000, .i32⟩
  | .hbm, ⟨54, _⟩ => ⟨S2000000, .i32⟩
  | .hbm, ⟨55, _⟩ => ⟨S2000000, .i32⟩
  | .hbm, ⟨56, _⟩ => ⟨S2000000x1, .i32⟩
  | .hbm, ⟨57, _⟩ => ⟨S2000000x22, .f32⟩
  | .hbm, ⟨58, _⟩ => ⟨S2000000x22, .f32⟩
  | .hbm, ⟨59, _⟩ => ⟨S_, .f32⟩
  | .hbm, ⟨60, _⟩ => ⟨S2000000, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .i32⟩
  | .hbm, ⟨66, _⟩ => ⟨S2000000, .i32⟩
  | .hbm, ⟨67, _⟩ => ⟨S2000000, .i1⟩
  | .hbm, ⟨68, _⟩ => ⟨S_, .i32⟩
  | .hbm, ⟨69, _⟩ => ⟨S2000000, .i32⟩
  | .hbm, ⟨70, _⟩ => ⟨S2000000, .i32⟩
  | .hbm, ⟨71, _⟩ => ⟨S2000000, .i32⟩
  | .hbm, ⟨72, _⟩ => ⟨S2000000x1, .i32⟩
  | .hbm, ⟨73, _⟩ => ⟨S2000000, .i32⟩
  | .hbm, ⟨74, _⟩ => ⟨S_, .i32⟩
  | .hbm, ⟨75, _⟩ => ⟨S2000000, .i32⟩
  | .hbm, ⟨76, _⟩ => ⟨S2000000, .i1⟩
  | .hbm, ⟨77, _⟩ => ⟨S_, .i32⟩
  | .hbm, ⟨78, _⟩ => ⟨S2000000, .i32⟩
  | .hbm, ⟨79, _⟩ => ⟨S2000000, .i32⟩
  | .hbm, ⟨80, _⟩ => ⟨S2000000, .i32⟩
  | .hbm, ⟨81, _⟩ => ⟨S2000000x1, .i32⟩
  | .hbm, ⟨82, _⟩ => ⟨S2000000x6, .f32⟩
  | .hbm, ⟨83, _⟩ => ⟨S_, .i32⟩
  | .hbm, ⟨84, _⟩ => ⟨S22, .i32⟩
  | .hbm, ⟨85, _⟩ => ⟨S22, .i1⟩
  | .hbm, ⟨86, _⟩ => ⟨S_, .i32⟩
  | .hbm, ⟨87, _⟩ => ⟨S22, .i32⟩
  | .hbm, ⟨88, _⟩ => ⟨S22, .i32⟩
  | .hbm, ⟨89, _⟩ => ⟨S22, .i32⟩
  | .hbm, ⟨90, _⟩ => ⟨S22x1, .i32⟩
  | .hbm, ⟨91, _⟩ => ⟨S2000000x22, .f32⟩
  | .hbm, ⟨92, _⟩ => ⟨S2000000x22, .f32⟩
  | .hbm, ⟨93, _⟩ => ⟨S_, .f32⟩
  | .hbm, ⟨94, _⟩ => ⟨S2000000, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | _, _ => ⟨S2000000x22, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_cst_0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_cst_1 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_v0 : Ref sig .tc := ⟨.hbm, 19, rfl⟩
abbrev main_v1 : Ref sig .tc := ⟨.hbm, 20, rfl⟩
abbrev main_call1_c : Ref sig .tc := ⟨.hbm, 21, rfl⟩
abbrev main_call1_v0 : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_c_1 : Ref sig .tc := ⟨.hbm, 29, rfl⟩
abbrev main_call1_c_2 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_3 : Ref sig .tc := ⟨.hbm, 37, rfl⟩
abbrev main_call1_v12 : Ref sig .tc := ⟨.hbm, 38, rfl⟩
abbrev main_call1_v13 : Ref sig .tc := ⟨.hbm, 39, rfl⟩
abbrev main_call1_cst : Ref sig .tc := ⟨.hbm, 40, rfl⟩
abbrev main_call1_v14 : Ref sig .tc := ⟨.hbm, 41, rfl⟩
abbrev main_v2 : Ref sig .tc := ⟨.hbm, 42, rfl⟩
abbrev main_cst : Ref sig .tc := ⟨.hbm, 43, rfl⟩
abbrev main_v3 : Ref sig .tc := ⟨.hbm, 44, rfl⟩
abbrev main_cst_0 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_c : Ref sig .tc := ⟨.hbm, 49, rfl⟩
abbrev main_v7 : Ref sig .tc := ⟨.hbm, 50, rfl⟩
abbrev main_v8 : Ref sig .tc := ⟨.hbm, 51, rfl⟩
abbrev main_c_1 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_cst_2 : Ref sig .tc := ⟨.hbm, 59, rfl⟩
abbrev main_v15 : Ref sig .tc := ⟨.hbm, 60, rfl⟩
abbrev main_cst_3 : Ref sig .tc := ⟨.hbm, 61, rfl⟩
abbrev main_v16 : Ref sig .tc := ⟨.hbm, 62, rfl⟩
abbrev main_cst_4 : Ref sig .tc := ⟨.hbm, 63, rfl⟩
abbrev main_v17 : Ref sig .tc := ⟨.hbm, 64, rfl⟩
abbrev main_c_5 : Ref sig .tc := ⟨.hbm, 65, rfl⟩
abbrev main_v18 : Ref sig .tc := ⟨.hbm, 66, rfl⟩
abbrev main_v19 : Ref sig .tc := ⟨.hbm, 67, rfl⟩
abbrev main_c_6 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_c_7 : Ref sig .tc := ⟨.hbm, 74, rfl⟩
abbrev main_v25 : Ref sig .tc := ⟨.hbm, 75, rfl⟩
abbrev main_v26 : Ref sig .tc := ⟨.hbm, 76, rfl⟩
abbrev main_c_8 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_c_9 : Ref sig .tc := ⟨.hbm, 83, rfl⟩
abbrev main_v32 : Ref sig .tc := ⟨.hbm, 84, rfl⟩
abbrev main_v33 : Ref sig .tc := ⟨.hbm, 85, rfl⟩
abbrev main_c_10 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_cst_11 : Ref sig .tc := ⟨.hbm, 93, rfl⟩
abbrev main_v40 : Ref sig .tc := ⟨.hbm, 94, rfl⟩
abbrev main_cst_12 : Ref sig .tc := ⟨.hbm, 95, rfl⟩
abbrev main_v41 : Ref sig .tc := ⟨.hbm, 96, rfl⟩
abbrev main_cst_13 : Ref sig .tc := ⟨.hbm, 97, rfl⟩
abbrev main_v42 : Ref sig .tc := ⟨.hbm, 98, rfl⟩
abbrev main_cst_14 : Ref sig .tc := ⟨.hbm, 99, rfl⟩
abbrev main_v43 : Ref sig .tc := ⟨.hbm, 100, rfl⟩
abbrev main_v44 : Ref sig .tc := ⟨.hbm, 101, rfl⟩
abbrev main_cst_15 : Ref sig .tc := ⟨.hbm, 102, rfl⟩
abbrev main_v45 : Ref sig .tc := ⟨.hbm, 103, rfl⟩
abbrev main_v46 : Ref sig .tc := ⟨.hbm, 104, rfl⟩

abbrev nD : Nat := 1
abbrev τ : Topo := Topo.v7x

variable {F : FTy → Type} [FloatOps F]

class Facts₀ : Prop where
  reducesTo_S2000000x22_S2000000_d1 : S2000000x22.ReducesTo [1] S2000000
  h_S_ : 0 < S_.numel
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S2000000x1_S2000000x22_0_1 : S2000000x1.BroadcastsInDim S2000000x22 (![0, 1] : Fin 2 → Fin S2000000x22.rank)
  bcast_S_S2000000x1 : S_.BroadcastsInDim S2000000x1 (![] : Fin 0 → Fin S2000000x1.rank)
  shapeCasts_S2000000x1_S2000000x1x1 : S2000000x1.ShapeCasts S2000000x1x1
  bcast_S_S2000000x1x1 : S_.BroadcastsInDim S2000000x1x1 (![] : Fin 0 → Fin S2000000x1x1.rank)
  bcast_S1_S1x1x1_2 : S1.BroadcastsInDim S1x1x1 (![2] : Fin 1 → Fin S1x1x1.rank)
  bcast_S1x1x1_S2000000x1x1_0_1_2 : S1x1x1.BroadcastsInDim S2000000x1x1 (![0, 1, 2] : Fin 3 → Fin S2000000x1x1.rank)
  reducesTo_S2000000x1x1_S2000000x1_d2 : S2000000x1x1.ReducesTo [2] S2000000x1
  reducesTo_S2000000x1_S_d0_1 : S2000000x1.ReducesTo [0, 1] S_
  reducesTo_S2000000_S_d0 : S2000000.ReducesTo [0] S_
  bcast_S_S22 : S_.BroadcastsInDim S22 (![] : Fin 0 → Fin S22.rank)
  bcast_S22_S22x1_0 : S22.BroadcastsInDim S22x1 (![0] : Fin 1 → Fin S22x1.rank)
  gather_S2000000x22_S2000000x1x1_S2000000x1_n_1_0_0_1_2_11_wf : GatherDims.WF S2000000x22 S2000000x1x1 S2000000x1 [] [1] [0] [1] [0] 2 ![1, 1]
  gather_S22x22_S2000000x1_S2000000x22_1_0_n_n_0_1_122_wf : GatherDims.WF S22x22 S2000000x1 S2000000x22 [1] [0] [] [0] [] 1 ![1, 22]
  gather_S22_S2000000x1_S2000000_n_0_n_n_0_1_1_wf : GatherDims.WF S22 S2000000x1 S2000000 [] [0] [] [0] [] 1 ![1]
  gather_S6x6_S2000000x1_S2000000x6_1_0_n_n_0_1_16_wf : GatherDims.WF S6x6 S2000000x1 S2000000x6 [1] [0] [] [0] [] 1 ![1, 6]
  gather_S2000000x6_S22x1_S2000000x22_0_1_n_n_1_1_20000001_wf : GatherDims.WF S2000000x6 S22x1 S2000000x22 [0] [1] [] [1] [] 1 ![2000000, 1]

variable [Facts₀]

def gather_S2000000x22_S2000000x1x1_S2000000x1_n_1_0_0_1_2_11 : GatherDims S2000000x22 S2000000x1x1 S2000000x1 where
  offsetDims := []
  collapsedSliceDims := [1]
  operandBatchingDims := [0]
  startIndicesBatchingDims := [0]
  startIndexMap := [1]
  indexVectorDim := 2
  sliceSizes := ![1, 1]
  wf := gather_S2000000x22_S2000000x1x1_S2000000x1_n_1_0_0_1_2_11_wf
def gather_S22x22_S2000000x1_S2000000x22_1_0_n_n_0_1_122 : GatherDims S22x22 S2000000x1 S2000000x22 where
  offsetDims := [1]
  collapsedSliceDims := [0]
  operandBatchingDims := []
  startIndicesBatchingDims := []
  startIndexMap := [0]
  indexVectorDim := 1
  sliceSizes := ![1, 22]
  wf := gather_S22x22_S2000000x1_S2000000x22_1_0_n_n_0_1_122_wf
def gather_S22_S2000000x1_S2000000_n_0_n_n_0_1_1 : GatherDims S22 S2000000x1 S2000000 where
  offsetDims := []
  collapsedSliceDims := [0]
  operandBatchingDims := []
  startIndicesBatchingDims := []
  startIndexMap := [0]
  indexVectorDim := 1
  sliceSizes := ![1]
  wf := gather_S22_S2000000x1_S2000000_n_0_n_n_0_1_1_wf
def gather_S6x6_S2000000x1_S2000000x6_1_0_n_n_0_1_16 : GatherDims S6x6 S2000000x1 S2000000x6 where
  offsetDims := [1]
  collapsedSliceDims := [0]
  operandBatchingDims := []
  startIndicesBatchingDims := []
  startIndexMap := [0]
  indexVectorDim := 1
  sliceSizes := ![1, 6]
  wf := gather_S6x6_S2000000x1_S2000000x6_1_0_n_n_0_1_16_wf
def gather_S2000000x6_S22x1_S2000000x22_0_1_n_n_1_1_20000001 : GatherDims S2000000x6 S22x1 S2000000x22 where
  offsetDims := [0]
  collapsedSliceDims := [1]
  operandBatchingDims := []
  startIndicesBatchingDims := []
  startIndexMap := [1]
  indexVectorDim := 1
  sliceSizes := ![2000000, 1]
  wf := gather_S2000000x6_S22x1_S2000000x22_0_1_n_n_1_1_20000001_wf

class Facts : Prop extends Facts₀ where

variable [Facts]
-- ==== Proof.Pieces.lean ====
/-
  What one grid point leaves in the 128-lane accumulator and in the output's staging buffer, as values.

  The body loads the tile's logits `x0`, its target column `x1` and the distance table `x2`, forms the tile's
  cross-entropy sum and penalty sum, and stores  acc + delta  back into the accumulator, where delta carries the two
  sums in lanes 0 and 1 (`step`).  At the first point the accumulator is first reset, so the `acc` it adds to is the
  zero vector; at every later point it is what the point before left; at the last point the new accumulator is also
  copied into the output's staging buffer.  Each statement reads the one store that covers the buffer back as the
  stored value, the loads in it being whole-buffer loads of the named contents.
-/
import proofs.«410296_j15333033246933_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

/-- Every load and store of the body starts at the origin of its buffer. -/
theorem hz : (![0, 0] : Fin 2 → Nat) = fun _ => 0 := funext fun a => by fin_cases a <;> rfl

/-- The lane numbers 0 … 127 the body compares against 0 and 1. -/
abbrev lanes : IVec S1x128 32 := iota .tc S1x128 32 [1] iota_S1x128_d1_w32

/-- The accumulator after a point that found it at `acc`: `acc` plus the tile's two sums in lanes 0 and 1. -/
abbrev step (x0 : Vec F S5000x22 .f32) (x1 : Vec F S5000x1 .i32) (x2 : Vec F S22x22 .f32) (acc : Vec F S1x128 .f32) :
    Vec F S1x128 .f32 :=
  k0_pay1 (k0_pay5 x0 x1) (k0_pay6 x0 x1 x2) lanes k0_pay7 acc

/-- The first point: the accumulator is reset to zero, read back, and left at zero plus the tile's sums. -/
theorem scratch_A (c : Dev nD) (i : grid0.Coords) (arg1 : Memref sig .tc .vmem S5000x22 .f32) (harg1 : arg1.IsWhole) (arg2 : Memref sig .tc .vmem S5000x1 .i32) (harg2 : arg2.IsWhole) (arg3 : Memref sig .tc .vmem S22x22 .f32) (harg3 : arg3.IsWhole) (arg4 : Memref sig .tc .vmem S1x128 .f32) (harg4 : arg4.IsWhole) (arg5 : Memref sig .tc .vmem S1x128 .f32) (harg5 : arg5.IsWhole) (hc0 : cond0_0 i) (hc1 : ¬cond0_1 i)
    (x0 : Vec F S5000x22 .f32) (x1 : Vec F S5000x1 .i32) (x2 : Vec F S22x22 .f32) :
    sout0_A_0 c i arg1 harg1 arg2 harg2 arg3 harg3 arg4 harg4 arg5 harg5 hc0 hc1 x0 x1 x2 = step x0 x1 x2 k0_pay2 := by
  unfold sout0_A_0
  rw [View.read_writes_eq_canon _ _ _ (scover0_A_0 c i arg1 harg1 arg2 harg2 arg3 harg3 arg4 harg4 arg5 harg5 hc0 hc1 x0 x1 x2)]
  unfold kernelRun0_A
  dsimp only
  sl_unfold_words
  rw [View.canon_cons_unit_zero (S := S1x128) hz]
  simp only [View.readAt_eq_ld, harg1.read_unread, harg2.read_unread, harg3.read_unread, harg5.read_unread, View.readCov_unit_zero (S := S1x128) _ hz, View.ld_unit_zero (S := S1x128) hz,
    View.ld_unit_zero (S := S5000x22) hz, View.ld_unit_zero (S := S5000x1) hz, View.ld_unit_zero (S := S22x22) hz]

/-- A middle point: the accumulator held `xs0` and is left at `xs0` plus the tile's sums. -/
theorem scratch_B (c : Dev nD) (i : grid0.Coords) (arg1 : Memref sig .tc .vmem S5000x22 .f32) (harg1 : arg1.IsWhole) (arg2 : Memref sig .tc .vmem S5000x1 .i32) (harg2 : arg2.IsWhole) (arg3 : Memref sig .tc .vmem S22x22 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc1 : ¬cond0_1 i)
    (x0 : Vec F S5000x22 .f32) (x1 : Vec F S5000x1 .i32) (x2 : Vec F S22x22 .f32) (xs0 : Vec F S1x128 .f32) :
    sout0_B_0 c i arg1 harg1 arg2 harg2 arg3 harg3 arg4 harg4 arg5 harg5 hc0 hc1 x0 x1 x2 xs0 = step x0 x1 x2 xs0 := by
  unfold sout0_B_0
  rw [View.read_writes_eq_canon _ _ _ (scover0_B_0 c i arg1 harg1 arg2 harg2 arg3 harg3 arg4 harg4 arg5 harg5 hc0 hc1 x0 x1 x2 xs0)]
  unfold kernelRun0_B
  dsimp only
  sl_unfold_words
  rw [View.canon_unit_zero hz]
  simp only [View.readAt_eq_ld, harg1.read_unread, harg2.read_unread, harg3.read_unread, harg5.read_unread, View.ld_unit_zero (S := S1x128) hz,
    View.ld_unit_zero (S := S5000x22) hz, View.ld_unit_zero (S := S5000x1) hz, View.ld_unit_zero (S := S22x22) hz]

/-- The last point: the accumulator, the same way. -/
theorem scratch_C (c : Dev nD) (i : grid0.Coords) (arg1 : Memref sig .tc .vmem S5000x22 .f32) (harg1 : arg1.IsWhole) (arg2 : Memref sig .tc .vmem S5000x1 .i32) (harg2 : arg2.IsWhole) (arg3 : Memref sig .tc .vmem S22x22 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc1 : cond0_1 i)
    (x0 : Vec F S5000x22 .f32) (x1 : Vec F S5000x1 .i32) (x2 : Vec F S22x22 .f32) (xs0 : Vec F S1x128 .f32) :
    sout0_C_0 c i arg1 harg1 arg2 harg2 arg3 harg3 arg4 harg4 arg5 harg5 hc0 hc1 x0 x1 x2 xs0 = step x0 x1 x2 xs0 := by
  unfold sout0_C_0
  rw [View.read_writes_eq_canon _ _ _ (scover0_C_0 c i arg1 harg1 arg2 harg2 arg3 harg3 arg4 harg4 arg5 harg5 hc0 hc1 x0 x1 x2 xs0)]
  unfold kernelRun0_C
  dsimp only
  sl_unfold_words
  rw [View.canon_unit_zero hz]
  simp only [View.readAt_eq_ld, harg1.read_unread, harg2.read_unread, harg3.read_unread, harg5.read_unread, View.readCov_unit_zero (S := S1x128) _ hz, View.ld_unit_zero (S := S1x128) hz,
    View.ld_unit_zero (S := S5000x22) hz, View.ld_unit_zero (S := S5000x1) hz, View.ld_unit_zero (S := S22x22) hz]

/-- The last point: the output's staging buffer receives the accumulator as just updated. -/
theorem out_C (c : Dev nD) (i : grid0.Coords) (arg1 : Memref sig .tc .vmem S5000x22 .f32) (harg1 : arg1.IsWhole) (arg2 : Memref sig .tc .vmem S5000x1 .i32) (harg2 : arg2.IsWhole) (arg3 : Memref sig .tc .vmem S22x22 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc1 : cond0_1 i)
    (x0 : Vec F S5000x22 .f32) (x1 : Vec F S5000x1 .i32) (x2 : Vec F S22x22 .f32) (xs0 : Vec F S1x128 .f32) :
    out0_C_3 c i arg1 harg1 arg2 harg2 arg3 harg3 arg4 harg4 arg5 harg5 hc0 hc1 x0 x1 x2 xs0 = step x0 x1 x2 xs0 := by
  unfold out0_C_3
  rw [View.read_writes_eq_canon _ _ _ (cover0_C_3 c i arg1 harg1 arg2 harg2 arg3 harg3 arg4 harg4 arg5 harg5 hc0 hc1 x0 x1 x2 xs0)]
  unfold kernelRun0_C
  dsimp only
  sl_unfold_words
  rw [View.canon_unit_zero hz]
  simp only [View.readAt_eq_ld, harg1.read_unread, harg2.read_unread, harg3.read_unread, harg5.read_unread, View.readCov_unit_zero (S := S1x128) _ hz, View.ld_unit_zero (S := S1x128) hz,
    View.ld_unit_zero (S := S5000x22) hz, View.ld_unit_zero (S := S5000x1) hz, View.ld_unit_zero (S := S22x22) hz]

end Cert.KernelIdeal.Pieces

end
-- ==== Proof.Spec.lean ====
/-
  The distance-penalty loss as one extended-real number, in the two arrangements the two programs compute it in.

  A batch of 2000000 rows of 22 logits; row i has a target word t i (a class label), and there are a 22 x 22 table of
  node distances, a 6 x 6 table of area distances and a word per class naming its area.  With
      lsm x j = (x j - M) - log (sum_k exp (x k - M)),   M the largest of the row's logits,        (log-softmax)
      p x j   = exp (lsm x j),                                                                         (probability)
  the loss is   mean_i ( - lsm (row i) (t i) )  +  mean_i sum_j p (row i) j * D (t i) j,
  where D k j = node k j + area (area-of k) (area-of j).

  ONE-HOT ARRANGEMENT (`lossTiled`): the target selects by multiplying with the indicator [t i = j]: the cross-entropy
  term of a row is 0 - sum_j [t i = j] * lsm j, its distance row is sum_k [t i = k] * D k j with D combined first, and
  the two sums over rows are divided by the batch size and added.
  INDEXED ARRANGEMENT (`lossRef`): the target indexes: lsm (row i) (t i), node (t i) j and area (area-of (t i)) (area-of j)
  are read at the index the word names, and the three means are combined as  -ce + 1 * node + 1 * area.
  An index word is first normalised the way array indexing does it (a negative word is increased by the extent, the
  result is clamped into the array); a word that already lies in range is left alone.
-/
import Idealize.ShloMosaic.PureOps.Ideal
import Idealize.ShloMosaic.Lib.ValueIdx

noncomputable section

namespace Cert.PenaltyLoss

open Idealize.ShloMosaic Idealize.ShloMosaic.ValueIdx

/-- The shapes of the five arguments. -/
abbrev SLogits : Shape := ⟨2, ![2000000, 22]⟩
abbrev STargets : Shape := ⟨1, ![2000000]⟩
abbrev SNode : Shape := ⟨2, ![22, 22]⟩
abbrev SArea : Shape := ⟨2, ![6, 6]⟩
abbrev SAreaOf : Shape := ⟨1, ![22]⟩

/-! ## One row -/

/-- The largest of a row's 22 entries, taken from −∞. -/
def rowMax (x : Fin 22 → EReal) : EReal := (Finset.univ : Finset (Fin 22)).fold max ⊥ x

/-- The log-softmax of a row at class `j`, shifted by the row's maximum. -/
def logSoftmax (x : Fin 22 → EReal) (j : Fin 22) : EReal :=
  (x j - rowMax x) - Ideal.log (∑ k : Fin 22, Ideal.exp (x k - rowMax x))

/-- The softmax probability of class `j`: the exponential of the log-softmax. -/
def prob (x : Fin 22 → EReal) (j : Fin 22) : EReal := Ideal.exp (logSoftmax x j)

/-- The indicator that the target word `w` names class `j`. -/
def hot (w : BitVec 32) (j : Fin 22) : EReal := if w = BitVec.ofNat 32 j.val then 1 else 0

/-- A row's cross-entropy term, the target selecting by its indicator. -/
def ceRow (x : Fin 22 → EReal) (w : BitVec 32) : EReal := 0 - ∑ j : Fin 22, hot w j * logSoftmax x j

/-- A row's distance penalty against a table `D`: the probabilities weigh the table's row the indicator selects. -/
def penRow (D : Fin 22 → Fin 22 → EReal) (x : Fin 22 → EReal) (w : BitVec 32) : EReal :=
  ∑ j : Fin 22, prob x j * ∑ k : Fin 22, hot w k * D k j

/-- What one tile of rows adds to the 128 accumulator lanes: its cross-entropy sum in lane 0, its penalty sum in
    lane 1, nothing elsewhere. -/
def laneDelta (ce pen : EReal) (l : Fin 128) : EReal := if l.val = 0 then ce else if l.val = 1 then pen else 0

/-! ## Index words -/

/-- Array indexing's first step: a negative word is increased by the extent `n`. -/
def wrapWord (n w : BitVec 32) : BitVec 32 := Scalar.select (IntOp.cmpi .slt w 0#32) (IntOp.addi w n) w

/-- Its second step: the word, read signed, clamped into `[0, n − 1]`. -/
def clampWord (n : ℕ) (hn : 0 < n) (w : BitVec 32) : Fin n := ⟨min w.toInt.toNat (n - 1), by omega⟩

/-- The entry of an array of `n` entries that the index word `w` names. -/
def indexOf (n : ℕ) (hn : 0 < n) (w : BitVec 32) : Fin n := clampWord n hn (wrapWord (BitVec.ofNat 32 n) w)

/-! ## The whole batch -/

section
variable (L : SLogits.Idx → EReal) (T : STargets.Idx → BitVec 32) (Dn : SNode.Idx → EReal) (Da : SArea.Idx → EReal)
  (A : SAreaOf.Idx → BitVec 32)

/-- Row `i` of the logits. -/
def row (i : Fin 2000000) : Fin 22 → EReal := fun j => L (ix2 i j)

/-- Row `r` of tile `t`: the batch is cut into 400 tiles of 5000 consecutive rows. -/
def rowOf (t : Fin 400) (r : Fin 5000) : Fin 2000000 := ⟨t.val * 5000 + r.val, by omega⟩

/-- The target word of row `i`. -/
def target (i : Fin 2000000) : BitVec 32 := T (ix1 i)

/-- The area of class `k`, as an index into the area table. -/
def areaIdx (k : Fin 22) : Fin 6 := indexOf 6 (by decide) (A (ix1 k))

/-- The class the target word of row `i` names, as an index. -/
def targetIdx (i : Fin 2000000) : Fin 22 := indexOf 22 (by decide) (target T i)

/-- The weight 1.0 both terms of the combined table carry. -/
def weight : EReal := Ideal.ofBits .f32 0x3F800000#32

/-- The batch size 2000000.0 the sums are divided by. -/
def batch : EReal := Ideal.ofBits .f32 0x49F42400#32

/-- The combined distance table: node distance plus the distance of the two classes' areas. -/
def comb (k j : Fin 22) : EReal := weight * Dn (ix2 k j) + weight * Da (ix2 (areaIdx A k) (areaIdx A j))

/-- ONE-HOT ARRANGEMENT: the two sums over all rows, each divided by the batch size, added. -/
def lossTiled : EReal :=
  Ideal.div (∑ i : Fin 2000000, ceRow (row L i) (target T i)) batch
    + Ideal.div (∑ i : Fin 2000000, penRow (comb Dn Da A) (row L i) (target T i)) batch

/-- INDEXED ARRANGEMENT: minus the mean log-softmax at the target, plus the mean node penalty, plus the mean area
    penalty. -/
def lossRef : EReal :=
  (-(Ideal.div (∑ i : Fin 2000000, logSoftmax (row L i) (targetIdx T i)) batch)
      + weight * Ideal.div (∑ i : Fin 2000000, ∑ j : Fin 22, prob (row L i) j * Dn (ix2 (targetIdx T i) j)) batch)
    + weight * Ideal.div (∑ i : Fin 2000000, ∑ j : Fin 22,
        prob (row L i) j * Da (ix2 (indexOf 6 (by decide) (A (ix1 (targetIdx T i)))) (areaIdx A j))) batch

/-- The inputs on which the two arrangements are compared: every float entry a real number, every target word a
    class label in `[0, 22)`. -/
structure InDomain : Prop where
  logits : ∀ i, L i ≠ ⊤ ∧ L i ≠ ⊥
  node : ∀ i, Dn i ≠ ⊤ ∧ Dn i ≠ ⊥
  area : ∀ i, Da i ≠ ⊤ ∧ Da i ≠ ⊥
  targets : ∀ i, 0 ≤ (T i).toInt ∧ (T i).toInt < 22

end

end Cert.PenaltyLoss

end
-- ==== Proof.LibColumn.lean ====
/-
  Column vectors read at an index given by coordinates: a column `[a, 1]` stretched over `b` lanes, and a vector
  `[a]` or a row `[1, a]` stood up as the column `[a, 1]`. Each is the library's general lemma for the operation
  with the coordinate arithmetic done once, for indices written `ix1` / `ix2`.
-/
import Idealize.ShloMosaic.Lib.Pipeline.Value
import Idealize.ShloMosaic.Lib.ValueIdx

namespace Cert.LibColumn

open Idealize.ShloMosaic Idealize.ShloMosaic.ValueIdx

variable {α : Type}

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A row `[1, a]` cast to the column `[a, 1]` reads, at `(i, u)`, the row's entry `i`. -/
theorem shapeCast_1a_a1_apply {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

end Cert.LibColumn
-- ==== Proof.LibExtrema.lean ====
/-
  Extrema of a whole array on the host, at the exact instance.

  A host maximum-reduce over ALL axes of an array (jnp.max(x): the result has one index) from the initial value −∞ is
  the greatest entry; a minimum-reduce from +∞ is the least.  So when every entry is a real number the result is a
  real number too (the array has at least one entry), every entry lies between the least and the greatest, and if
  max(|least|, |greatest|) is 0 then every entry is 0.  Also: what the test  |x| < +∞  says of an extended real.
-/
import Idealize.ShloMosaic.PureOps.Ideal
import Idealize.ShloMosaic.PureOps.Ideal.Laws
import Idealize.ShloMosaic.PureOps.Reduce

noncomputable section

namespace Cert.LibExtrema

open Idealize.ShloMosaic

variable {s t u : Shape} {axes : List (Fin s.rank)}

/-- The scalar shape has one index. -/
instance scalarIdx_subsingleton : Subsingleton (⟨0, ![]⟩ : Shape).Idx := ⟨fun _ _ => funext fun d => d.elim0⟩

/-- The f32 pattern of −∞ denotes the bottom of the extended reals. -/
theorem ofBits_neg_inf : Ideal.ofBits .f32 0xFF800000#32 = ⊥ := by simp [Ideal.ofBits, Ideal.ieee]

/-- The f32 pattern of +∞ denotes the top of the extended reals. -/
theorem ofBits_pos_inf : Ideal.ofBits .f32 0x7F800000#32 = ⊤ := by simp [Ideal.ofBits, Ideal.ieee]

/-- A maximum-reduce into a result of one index is the maximum, from the initial value, over every entry. -/
theorem reduce_max_eq_fold [Subsingleton t.Idx] (x : s.Idx → Ideal .f32) (init : u.Idx → Ideal .f32)
    (h : s.ReducesTo axes t) (hu : 0 < u.numel) (j : t.Idx) :
    Host.reduce (FloatOps.maximumf (F := Ideal) (φ := .f32)) x init h hu j
      = (Finset.univ : Finset s.Idx).fold (max : EReal → EReal → EReal) (init (Shape.Idx.first hu)) x := by
  rw [Host.reduce_eq_fold, Finset.filter_true_of_mem (fun i _ => Subsingleton.elim _ _)]
  rfl

/-- A minimum-reduce into a result of one index is the minimum, from the initial value, over every entry. -/
theorem reduce_min_eq_fold [Subsingleton t.Idx] (x : s.Idx → Ideal .f32) (init : u.Idx → Ideal .f32)
    (h : s.ReducesTo axes t) (hu : 0 < u.numel) (j : t.Idx) :
    Host.reduce (FloatOps.minimumf (F := Ideal) (φ := .f32)) x init h hu j
      = (Finset.univ : Finset s.Idx).fold (min : EReal → EReal → EReal) (init (Shape.Idx.first hu)) x := by
  rw [Host.reduce_eq_fold, Finset.filter_true_of_mem (fun i _ => Subsingleton.elim _ _)]
  rfl

/-- Every entry is at most the array's maximum. -/
theorem le_reduce_max [Subsingleton t.Idx] (x : s.Idx → Ideal .f32) (init : u.Idx → Ideal .f32)
    (h : s.ReducesTo axes t) (hu : 0 < u.numel) (j : t.Idx) (i : s.Idx) :
    x i ≤ Host.reduce (FloatOps.maximumf (F := Ideal) (φ := .f32)) x init h hu j := by
  rw [reduce_max_eq_fold]
  exact (Finset.le_fold_max _).2 (Or.inr ⟨i, Finset.mem_univ i, le_rfl⟩)

/-- The array's minimum is at most every entry. -/
theorem reduce_min_le [Subsingleton t.Idx] (x : s.Idx → Ideal .f32) (init : u.Idx → Ideal .f32)
    (h : s.ReducesTo axes t) (hu : 0 < u.numel) (j : t.Idx) (i : s.Idx) :
    Host.reduce (FloatOps.minimumf (F := Ideal) (φ := .f32)) x init h hu j ≤ x i := by
  rw [reduce_min_eq_fold]
  exact (Finset.fold_min_le _).2 (Or.inr ⟨i, Finset.mem_univ i, le_rfl⟩)

/-- The maximum, from −∞, of an array with an entry and with every entry real is real. -/
theorem reduce_max_real [Subsingleton t.Idx] (x : s.Idx → Ideal .f32) (init : u.Idx → Ideal .f32)
    (h : s.ReducesTo axes t) (hu : 0 < u.numel) (j : t.Idx) (hinit : init (Shape.Idx.first hu) = ⊥)
    (hx : ∀ i, x i ≠ ⊤ ∧ x i ≠ ⊥) (i0 : s.Idx) :
    Host.reduce (FloatOps.maximumf (F := Ideal) (φ := .f32)) x init h hu j ≠ ⊤
      ∧ Host.reduce (FloatOps.maximumf (F := Ideal) (φ := .f32)) x init h hu j ≠ ⊥ := by
  refine ⟨?_, fun e => (hx i0).2 (le_bot_iff.1 (e ▸ le_reduce_max x init h hu j i0))⟩
  rw [reduce_max_eq_fold, hinit]
  exact ((Finset.fold_max_lt _).2 ⟨bot_lt_top, fun i _ => lt_top_iff_ne_top.2 (hx i).1⟩).ne

/-- The minimum, from +∞, of an array with an entry and with every entry real is real. -/
theorem reduce_min_real [Subsingleton t.Idx] (x : s.Idx → Ideal .f32) (init : u.Idx → Ideal .f32)
    (h : s.ReducesTo axes t) (hu : 0 < u.numel) (j : t.Idx) (hinit : init (Shape.Idx.first hu) = ⊤)
    (hx : ∀ i, x i ≠ ⊤ ∧ x i ≠ ⊥) (i0 : s.Idx) :
    Host.reduce (FloatOps.minimumf (F := Ideal) (φ := .f32)) x init h hu j ≠ ⊤
      ∧ Host.reduce (FloatOps.minimumf (F := Ideal) (φ := .f32)) x init h hu j ≠ ⊥ := by
  refine ⟨fun e => (hx i0).1 (top_le_iff.1 (e ▸ reduce_min_le x init h hu j i0)), ?_⟩
  rw [reduce_min_eq_fold, hinit]
  exact ((Finset.lt_fold_min _).2 ⟨bot_lt_top, fun i _ => bot_lt_iff_ne_bot.2 (hx i).2⟩).ne'

/-- The magnitude max(y, −y) of a real is real. -/
theorem abs_real (y : EReal) (hy : y ≠ ⊤ ∧ y ≠ ⊥) : max y (-y) ≠ ⊤ ∧ max y (-y) ≠ ⊥ := by
  obtain ⟨r, rfl⟩ : ∃ r : ℝ, y = r := ⟨y.toReal, (EReal.coe_toReal hy.1 hy.2).symm⟩
  rcases max_choice (r : EReal) (-(r : EReal)) with e | e <;> rw [e]
  · exact ⟨EReal.coe_ne_top r, EReal.coe_ne_bot r⟩
  · rw [← EReal.coe_neg]; exact ⟨EReal.coe_ne_top _, EReal.coe_ne_bot _⟩

/-- The larger of two reals is real. -/
theorem max_real (a b : EReal) (ha : a ≠ ⊤ ∧ a ≠ ⊥) (hb : b ≠ ⊤ ∧ b ≠ ⊥) : max a b ≠ ⊤ ∧ max a b ≠ ⊥ := by
  rcases max_choice a b with e | e <;> rw [e]
  exacts [ha, hb]

/-- If the larger of |lo| and |hi| is 0, everything between lo and hi is 0. -/
theorem eq_zero_of_maxAbs_eq_zero {ι : Type} (lo hi : EReal) (x : ι → EReal) (hlo : ∀ i, lo ≤ x i) (hhi : ∀ i, x i ≤ hi)
    (h : max (max lo (-lo)) (max hi (-hi)) = 0) (i : ι) : x i = 0 := by
  have h1 : -lo ≤ 0 := ((le_max_right lo (-lo)).trans (le_max_left _ _)).trans h.le
  have h2 : hi ≤ 0 := ((le_max_left hi (-hi)).trans (le_max_right _ _)).trans h.le
  have h3 : 0 ≤ lo := by have := EReal.neg_le.1 h1; rwa [neg_zero] at this
  exact le_antisymm ((hhi i).trans h2) (h3.trans (hlo i))

/-- The test |x| < +∞ answers 1 exactly for the reals. -/
theorem real_of_abs_lt_inf (x : EReal)
    (h : Ideal.cmp .olt (max x (-x)) (Ideal.ofBits .f32 0x7F800000#32) = 1#1) : x ≠ ⊤ ∧ x ≠ ⊥ := by
  rw [ofBits_pos_inf] at h
  have hlt : max x (-x) < ⊤ := by
    by_contra hn
    simp [Ideal.cmp, hn] at h
  constructor
  · rintro rfl; exact absurd hlt (by simp)
  · rintro rfl; exact absurd hlt (by simp)

end Cert.LibExtrema

end
-- ==== Proof.BodyValue.lean ====
/-
  What the body computes from one tile, as sums over the tile's rows.
-/
import proofs.«410296_j15333033246933_2_alg».proof.Proof.Gen.KernelIdeal.Skeleton
import proofs.«410296_j15333033246933_2_alg».proof.Proof.Spec
import proofs.«410296_j15333033246933_2_alg».proof.Proof.LibColumn
import proofs.«410296_j15333033246933_2_alg».proof.Proof.LibExtrema
import Idealize.ShloMosaic.PureOps.Ideal.Laws
import Idealize.ShloMosaic.Lib.Pipeline.Value
import Idealize.ShloMosaic.Lib.ValueLayout

noncomputable section

namespace Cert.KernelIdeal.BodyValue

open Cert.KernelIdeal Cert.KernelIdeal.Gen Cert.PenaltyLoss Idealize.ShloMosaic Idealize.ShloMosaic.ValueIdx

/-- The equality test of two words answers 1 exactly when the words agree. -/
theorem cmpi_eq_iff (x y : BitVec 32) : IntOp.cmpi .eq x y = 1 ↔ x = y := by
  show BitVec.ofBool (x == y) = 1 ↔ x = y
  by_cases h : x = y
  · subst h; simp
  · have : (x == y) = false := by rw [beq_eq_false_iff_ne]; exact h
    rw [this]; simp [h]

/-- Two naturals below 2^32 name the same word only when they are equal. -/
theorem ofNat_eq_ofNat_iff (a b : Nat) (ha : a < 2 ^ 32) (hb : b < 2 ^ 32) :
    BitVec.ofNat 32 a = BitVec.ofNat 32 b ↔ a = b := by
  constructor
  · intro e
    have := congrArg BitVec.toNat e
    simp only [BitVec.toNat_ofNat] at this
    rwa [Nat.mod_eq_of_lt ha, Nat.mod_eq_of_lt hb] at this
  · rintro rfl; rfl

/-! ## The non-pointwise operations of the body, each read at an index -/

/-- The index a lane reduction of a 5000 x 22 block puts back at row r and summand j is (r, j). -/
theorem lift_lane (h : S5000x22.Reduces [1] S5000) (r : Fin 5000) (j : Fin 22) :
    h.lift (ix1 r) j = ix2 r j :=
  funext fun ax => Fin.ext (by
    match ax with
    | ⟨0, _⟩ => rfl
    | ⟨1, _⟩ => rfl)

/-- The index a reduction of a 5000 x 1 column over its rows puts back at the one entry and summand r is (r, 0). -/
theorem lift_rows (h : S5000x1.Reduces [0] S1) (i : Fin 1) (r : Fin 5000) :
    h.lift (ix1 i) r = ix2 r i :=
  funext fun ax => Fin.ext (by
    match ax with
    | ⟨0, _⟩ => rfl
    | ⟨1, _⟩ => rfl)

/-- A sum over the lanes of a block, at row r: the sum of the row's 22 entries. -/
theorem laneSum_apply (src : FVec Ideal S5000x22 .f32) (hφ : FKind.Formats .f32)
    (hacc : (0x00000000#32 : BitVec 32) = 0x00000000#32) (r : Fin 5000) :
    multiReduction (F := Ideal) .add [1] S5000 src 0x00000000#32 reduces_S5000x22_S5000 hφ hacc (ix1 r)
      = ∑ j : Fin 22, src (ix2 r j) := by
  refine (Ideal.multiReduction_add_single src 0x00000000#32 reduces_S5000x22_S5000 hφ hacc (ix1 r)).trans ?_
  exact Finset.sum_congr rfl fun j _ => congrArg src (lift_lane _ r j)

/-- A maximum over the lanes of a block from −∞, at row r: the largest of the row's 22 entries. -/
theorem laneMax_apply (src : FVec Ideal S5000x22 .f32) (hφ : FKind.Formats .f32)
    (hacc : (0xFF800000#32 : BitVec 32) = 0xFF800000#32) (r : Fin 5000) :
    multiReduction (F := Ideal) .maximumf [1] S5000 src 0xFF800000#32 reduces_S5000x22_S5000 hφ hacc (ix1 r)
      = rowMax (fun j => src (ix2 r j)) := by
  refine (Ideal.multiReduction_maximumf_single src 0xFF800000#32 reduces_S5000x22_S5000 hφ hacc (ix1 r)).trans ?_
  unfold rowMax
  have e : (src ∘ (reduces_S5000x22_S5000).lift (ix1 r)) = fun j : Fin 22 => src (ix2 r j) :=
    funext fun j => congrArg src (lift_lane _ r j)
  have b : FloatOps.ofBits (F := Ideal) .f32 0xFF800000#32 = (⊥ : EReal) := Cert.LibExtrema.ofBits_neg_inf
  rw [b]
  exact congrArg (fun f => (Finset.univ : Finset (Fin 22)).fold max ⊥ f) e

/-- A sum over the rows of a column, at its one entry: the sum of the 5000 entries. -/
theorem rowSum_apply (src : FVec Ideal S5000x1 .f32) (hφ : FKind.Formats .f32)
    (hacc : (0x00000000#32 : BitVec 32) = 0x00000000#32) (i : Fin 1) :
    multiReduction (F := Ideal) .add [0] S1 src 0x00000000#32 reduces_S5000x1_S1 hφ hacc (ix1 i)
      = ∑ r : Fin 5000, src (ix2 r i) := by
  refine (Ideal.multiReduction_add_single src 0x00000000#32 reduces_S5000x1_S1 hφ hacc (ix1 i)).trans ?_
  exact Finset.sum_congr rfl fun r _ => congrArg src (lift_rows _ i r)

/-- The 5000 x 22 by 22 x 22 product into the zero accumulator, at (r, j): the sum over the shared index. -/
theorem tileMatmul_apply (prec : Option ContractPrecision) (l : FVec Ideal S5000x22 .f32) (m : FVec Ideal S22x22 .f32)
    (r : Fin 5000) (j : Fin 22) :
    FloatOps.matmul dot_S5000x22_S22x22_S5000x22_1_0_0_1_n_n prec l m (constant S5000x22 .f32 0x00000000#32) (ix2 r j)
      = ∑ k : Fin 22, l (ix2 r k) * m (ix2 k j) := by
  rw [Ideal.matmul_constant_zero_apply,
    ← Equiv.sum_comp (contrEquiv1 dot_S5000x22_S22x22_S5000x22_1_0_0_1_n_n 22 rfl rfl).symm]
  refine Finset.sum_congr rfl fun k _ => ?_
  have hk := contrEquiv1_symm_val dot_S5000x22_S22x22_S5000x22_1_0_0_1_n_n 22 rfl rfl k
  have el : dot_S5000x22_S22x22_S5000x22_1_0_0_1_n_n.lhsIdx (ix2 r j)
      ((contrEquiv1 dot_S5000x22_S22x22_S5000x22_1_0_0_1_n_n 22 rfl rfl).symm k) = ix2 r k :=
    funext fun ax => Fin.ext (by
      match ax with
      | ⟨0, _⟩ => rfl
      | ⟨1, _⟩ => exact (dot_S5000x22_S22x22_S5000x22_1_0_0_1_n_n.lhsIdx_val_of_single rfl (ix2 r j) _).trans hk)
  have er : dot_S5000x22_S22x22_S5000x22_1_0_0_1_n_n.rhsIdx (ix2 r j)
      ((contrEquiv1 dot_S5000x22_S22x22_S5000x22_1_0_0_1_n_n 22 rfl rfl).symm k) = ix2 k j :=
    funext fun ax => Fin.ext (by
      match ax with
      | ⟨0, _⟩ => exact (dot_S5000x22_S22x22_S5000x22_1_0_0_1_n_n.rhsIdx_val_of_single rfl (ix2 r j) _).trans hk
      | ⟨1, _⟩ => rfl)
  rw [el, er]

/-! ## The composite pieces of the body -/

/-- A vector of one entry per row, stood up as a column and stretched over the 22 lanes, reads the row's entry. -/
theorem keepdims_apply {α : Type} (v : S5000.Idx → α) (r : Fin 5000) (c : Fin 22) :
    broadcastTo S5000x22 (shapeCast S5000x1 v shapeCasts_S5000_S5000x1) broadcasts_S5000x1_S5000x22 (ix2 r c) = v (ix1 r) :=
  (Cert.LibColumn.broadcastTo_a1_ab_apply _ _ r c).trans (Cert.LibColumn.shapeCast_a_a1_apply v _ r 0)

/-- The block with each row's maximum taken off. -/
def shifted (x : FVec Ideal S5000x22 .f32) : FVec Ideal S5000x22 .f32 :=
  subf x (broadcastTo S5000x22
    (shapeCast S5000x1 (multiReduction .maximumf [1] S5000 x 0xFF800000#32 reduces_S5000x22_S5000 (.inl rfl) rfl)
      shapeCasts_S5000_S5000x1) broadcasts_S5000x1_S5000x22)

theorem shifted_apply (x : FVec Ideal S5000x22 .f32) (r : Fin 5000) (j : Fin 22) :
    shifted x (ix2 r j) = x (ix2 r j) - rowMax (fun k => x (ix2 r k)) := by
  show x (ix2 r j) - broadcastTo S5000x22 (shapeCast S5000x1 _ shapeCasts_S5000_S5000x1) broadcasts_S5000x1_S5000x22 (ix2 r j) = _
  rw [keepdims_apply]
  exact congrArg (x (ix2 r j) - ·) (laneMax_apply x _ _ r)

/-- The logarithm of each row's sum of exponentials of the shifted block, stretched over the lanes. -/
def logSum (x : FVec Ideal S5000x22 .f32) : FVec Ideal S5000x22 .f32 :=
  broadcastTo S5000x22
    (log (shapeCast S5000x1 (multiReduction .add [1] S5000 (exp (shifted x)) 0x00000000#32 reduces_S5000x22_S5000 (.inl rfl) rfl)
      shapeCasts_S5000_S5000x1)) broadcasts_S5000x1_S5000x22

theorem logSum_apply (x : FVec Ideal S5000x22 .f32) (r : Fin 5000) (j : Fin 22) :
    logSum x (ix2 r j) = Ideal.log (∑ k : Fin 22, Ideal.exp (x (ix2 r k) - rowMax (fun k => x (ix2 r k)))) := by
  refine (Cert.LibColumn.broadcastTo_a1_ab_apply _ _ r j).trans ?_
  show Ideal.log (shapeCast S5000x1 _ shapeCasts_S5000_S5000x1 (ix2 r (0 : Fin 1))) = _
  rw [Cert.LibColumn.shapeCast_a_a1_apply]
  refine congrArg Ideal.log ((laneSum_apply _ _ _ r).trans ?_)
  exact Finset.sum_congr rfl fun k _ => congrArg Ideal.exp (shifted_apply x r k)

theorem pay3_eq (x : Vec Ideal S5000x22 .f32) : k0_pay3 (F := Ideal) x = subf (shifted x) (logSum x) := rfl

/-- The body's log-softmax block at (r, j): the log-softmax of row r at class j. -/
theorem pay3_apply (x : Vec Ideal S5000x22 .f32) (r : Fin 5000) (j : Fin 22) :
    k0_pay3 (F := Ideal) x (ix2 r j) = logSoftmax (fun k => x (ix2 r k)) j := by
  rw [pay3_eq]
  show shifted x (ix2 r j) - logSum x (ix2 r j) = _
  rw [shifted_apply, logSum_apply]
  rfl

/-- The conversion to a float of the widened answer of an equality test: 1 where the words agree, 0 elsewhere. -/
theorem onehot_scalar (w v : BitVec 32) :
    FloatOps.sitofp (F := Ideal) .f32 ((IntOp.cmpi .eq w v).setWidth 32) = if w = v then (1 : EReal) else 0 := by
  show (((((IntOp.cmpi .eq w v).setWidth 32).toInt : ℤ) : ℝ) : EReal) = _
  by_cases h : w = v
  · rw [(cmpi_eq_iff w v).2 h, if_pos h]
    have : ((1 : BitVec 1).setWidth 32).toInt = 1 := by decide
    rw [this, Int.cast_one, EReal.coe_one]
  · have hc : IntOp.cmpi .eq w v = 0#1 := eq_zero_of_ne_one (fun e => h ((cmpi_eq_iff w v).1 e))
    rw [hc, if_neg h]
    have : ((0#1 : BitVec 1).setWidth 32).toInt = 0 := by decide
    rw [this, Int.cast_zero, EReal.coe_zero]

/-- The body's one-hot block at (r, j): the indicator that row r's target word names class j. -/
theorem pay4_apply (t : Vec Ideal S5000x1 .i32) (r : Fin 5000) (j : Fin 22) :
    k0_pay4 (F := Ideal) t (ix2 r j) = hot (t (ix2 r (0 : Fin 1))) j := by
  unfold k0_pay4
  show FloatOps.sitofp (F := Ideal) .f32
      ((IntOp.cmpi .eq
          (broadcastTo S5000x22 (shapeCast S5000x1 t shapeCasts_S5000x1_S5000x1) broadcasts_S5000x1_S5000x22 (ix2 r j))
          (broadcastTo S5000x22 (iota .tc S1x22 32 [1] iota_S1x22_d1_w32) broadcasts_S1x22_S5000x22 (ix2 r j))).setWidth 32) = _
  rw [shapeCast_self, Cert.LibColumn.broadcastTo_a1_ab_apply, broadcastTo_1b_ab_apply, iota_single_apply]
  exact onehot_scalar _ _

/-- The lane sums of a block, as a column. -/
def laneSumCol (w : FVec Ideal S5000x22 .f32) : FVec Ideal S5000x1 .f32 :=
  shapeCast S5000x1 (multiReduction .add [1] S5000 w 0x00000000#32 reduces_S5000x22_S5000 (.inl rfl) rfl) shapeCasts_S5000_S5000x1

theorem laneSumCol_apply (w : FVec Ideal S5000x22 .f32) (r : Fin 5000) (u : Fin 1) :
    laneSumCol w (ix2 r u) = ∑ j : Fin 22, w (ix2 r j) :=
  (Cert.LibColumn.shapeCast_a_a1_apply _ _ r u).trans (laneSum_apply w _ _ r)

/-- The total of a column over its rows, as a 1 x 1 block. -/
def colTotal (c : FVec Ideal S5000x1 .f32) : FVec Ideal S1x1 .f32 :=
  shapeCast S1x1 (multiReduction .add [0] S1 c 0x00000000#32 reduces_S5000x1_S1 (.inl rfl) rfl) shapeCasts_S1_S1x1

theorem colTotal_apply (c : FVec Ideal S5000x1 .f32) (y : S1x1.Idx) :
    colTotal c y = ∑ r : Fin 5000, c (ix2 r (0 : Fin 1)) := by
  obtain ⟨u, v, rfl⟩ : ∃ (u v : Fin 1), y = ix2 u v := ⟨y 0, y 1, eq_ix2 y⟩
  have hu : u = 0 := Subsingleton.elim _ _
  subst hu
  exact (Cert.LibColumn.shapeCast_a_a1_apply _ _ (0 : Fin 1) v).trans (rowSum_apply c _ _ 0)

theorem pay5_eq (x : Vec Ideal S5000x22 .f32) (t : Vec Ideal S5000x1 .i32) :
    k0_pay5 (F := Ideal) x t
      = colTotal (subf (broadcast S5000x1 (Scalar.ofBits .f32 0x00000000#32)) (laneSumCol (mulf (k0_pay4 t) (k0_pay3 x)))) := rfl

theorem pay6_eq (x : Vec Ideal S5000x22 .f32) (t : Vec Ideal S5000x1 .i32) (d : Vec Ideal S22x22 .f32) :
    k0_pay6 (F := Ideal) x t d
      = colTotal (laneSumCol (mulf (exp (k0_pay3 x))
          (matmul dot_S5000x22_S22x22_S5000x22_1_0_0_1_n_n (some .fp32) (k0_pay4 t)
            (shapeCast S22x22 d shapeCasts_S22x22_S22x22 : FVec Ideal S22x22 .f32) (constant S5000x22 .f32 0x00000000#32)))) := rfl

/-- The tile's cross-entropy sum. -/
theorem ce_tile (x : Vec Ideal S5000x22 .f32) (t : Vec Ideal S5000x1 .i32) (y : S1x1.Idx) :
    k0_pay5 (F := Ideal) x t y = ∑ r : Fin 5000, ceRow (fun j => x (ix2 r j)) (t (ix2 r (0 : Fin 1))) := by
  rw [pay5_eq, colTotal_apply]
  refine Finset.sum_congr rfl fun r _ => ?_
  show Ideal.ofBits .f32 0x00000000#32 - laneSumCol (mulf (k0_pay4 t) (k0_pay3 x)) (ix2 r (0 : Fin 1)) = _
  rw [Ideal.ofBits_zero_f32, laneSumCol_apply]
  unfold ceRow
  refine congrArg (0 - ·) (Finset.sum_congr rfl fun j _ => ?_)
  show k0_pay4 (F := Ideal) t (ix2 r j) * k0_pay3 (F := Ideal) x (ix2 r j) = _
  rw [pay4_apply, pay3_apply]

/-- The tile's penalty sum against the table block `d`. -/
theorem pen_tile (x : Vec Ideal S5000x22 .f32) (t : Vec Ideal S5000x1 .i32) (d : Vec Ideal S22x22 .f32) (y : S1x1.Idx) :
    k0_pay6 (F := Ideal) x t d y
      = ∑ r : Fin 5000, penRow (fun k j => d (ix2 k j)) (fun j => x (ix2 r j)) (t (ix2 r (0 : Fin 1))) := by
  rw [pay6_eq, colTotal_apply]
  refine Finset.sum_congr rfl fun r _ => ?_
  rw [laneSumCol_apply]
  unfold penRow prob
  refine Finset.sum_congr rfl fun j _ => ?_
  show Ideal.exp (k0_pay3 (F := Ideal) x (ix2 r j))
      * FloatOps.matmul dot_S5000x22_S22x22_S5000x22_1_0_0_1_n_n (some .fp32) (k0_pay4 (F := Ideal) t)
          (shapeCast S22x22 d shapeCasts_S22x22_S22x22 : FVec Ideal S22x22 .f32) (constant S5000x22 .f32 0x00000000#32) (ix2 r j) = _
  rw [tileMatmul_apply, pay3_apply, shapeCast_self]
  refine congrArg (_ * ·) (Finset.sum_congr rfl fun k _ => ?_)
  rw [pay4_apply]

/-- The accumulator after the tile: lane by lane, what it held plus the tile's two sums in lanes 0 and 1. -/
theorem acc_step (ce pen : FVec Ideal S1x1 .f32) (acc : Vec Ideal S1x128 .f32) (l : Fin 128) :
    k0_pay1 (F := Ideal) ce pen (iota .tc S1x128 32 [1] iota_S1x128_d1_w32) k0_pay7 acc (ix2 (0 : Fin 1) l)
      = acc (ix2 (0 : Fin 1) l) + laneDelta (ce (ix2 (0 : Fin 1) (0 : Fin 1))) (pen (ix2 (0 : Fin 1) (0 : Fin 1))) l := by
  simp only [k0_pay1, k0_pay7, shapeCast_self]
  show acc (ix2 (0 : Fin 1) l)
      + Scalar.select (IntOp.cmpi .eq (iota .tc S1x128 32 [1] iota_S1x128_d1_w32 (ix2 (0 : Fin 1) l)) 0#32)
          (broadcastTo S1x128 ce broadcasts_S1x1_S1x128 (ix2 (0 : Fin 1) l))
          (Scalar.select (IntOp.cmpi .eq (iota .tc S1x128 32 [1] iota_S1x128_d1_w32 (ix2 (0 : Fin 1) l)) 1#32)
            (broadcastTo S1x128 pen broadcasts_S1x1_S1x128 (ix2 (0 : Fin 1) l))
            (Scalar.ofBits (F := Ideal) .f32 0x00000000#32)) = _
  rw [iota_single_apply, Cert.LibColumn.broadcastTo_a1_ab_apply, Cert.LibColumn.broadcastTo_a1_ab_apply]
  show _ + Scalar.select (IntOp.cmpi .eq (BitVec.ofNat 32 l.val) (BitVec.ofNat 32 0)) _
      (Scalar.select (IntOp.cmpi .eq (BitVec.ofNat 32 l.val) (BitVec.ofNat 32 1)) _ (Ideal.ofBits .f32 0x00000000#32)) = _
  have hl : l.val < 2 ^ 32 := by have := l.isLt; omega
  have h0 : IntOp.cmpi .eq (BitVec.ofNat 32 l.val) (BitVec.ofNat 32 0) = 1 ↔ l.val = 0 :=
    (cmpi_eq_iff _ _).trans (ofNat_eq_ofNat_iff _ _ hl (by decide))
  have h1 : IntOp.cmpi .eq (BitVec.ofNat 32 l.val) (BitVec.ofNat 32 1) = 1 ↔ l.val = 1 :=
    (cmpi_eq_iff _ _).trans (ofNat_eq_ofNat_iff _ _ hl (by decide))
  unfold laneDelta Scalar.select
  rw [Ideal.ofBits_zero_f32]
  simp only [h0, h1]

/-- The reset value: zero in every lane. -/
theorem acc_reset (y : S1x128.Idx) : k0_pay2 (F := Ideal) y = 0 := by
  unfold k0_pay2
  show shapeCast S1x128 (broadcast S1x128 (Scalar.ofBits (F := Ideal) .f32 0x00000000#32)) shapeCasts_S1x128_S1x128 y = 0
  rw [shapeCast_self]
  exact Ideal.ofBits_zero_f32

end Cert.KernelIdeal.BodyValue

end
-- ==== Proof.Accumulate.lean ====
/-
  The accumulator point by point, and the output array after the run.

  Write ce n and pen n for the cross-entropy sum and the penalty sum of the tile that grid point n loads.  One point
  adds, lane by lane, `laneDelta (ce n) (pen n)` to what the accumulator held (zero at the first point, which resets
  it).  So after point n the accumulator holds, in lane l, the sum over the points s ≤ n of `laneDelta (ce s) (pen s) l`:
  an induction on the point.  The last point copies the accumulator into the output's one block, the only block ever
  written back, so the output array ends at the sum over all 400 points.
-/
import proofs.«410296_j15333033246933_2_alg».proof.Proof.Pieces
import proofs.«410296_j15333033246933_2_alg».proof.Proof.BodyValue
import proofs.«410296_j15333033246933_2_alg».proof.Proof.Spec

noncomputable section

namespace Cert.KernelIdeal.Accumulate

open Cert.KernelIdeal Cert.KernelIdeal.Gen Cert.KernelIdeal.Pieces Cert.PenaltyLoss
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The three input blocks of point `t`, under their literal types. -/
abbrev xblk (c : Dev nD) (t : Fin cfg0.N) : Vec Ideal S5000x22 .f32 := iblk m c 0 t
abbrev tblk (c : Dev nD) (t : Fin cfg0.N) : Vec Ideal S5000x1 .i32 := iblk m c 1 t
abbrev dblk (c : Dev nD) (t : Fin cfg0.N) : Vec Ideal S22x22 .f32 := iblk m c 2 t

/-- The cross-entropy sum of a tile given by its blocks. -/
def tileCe (x : Vec Ideal S5000x22 .f32) (t : Vec Ideal S5000x1 .i32) : EReal :=
  ∑ r : Fin 5000, ceRow (fun j => x (ix2 r j)) (t (ix2 r (0 : Fin 1)))

/-- The penalty sum of a tile given by its blocks and the table block. -/
def tilePen (x : Vec Ideal S5000x22 .f32) (t : Vec Ideal S5000x1 .i32) (d : Vec Ideal S22x22 .f32) : EReal :=
  ∑ r : Fin 5000, penRow (fun k j => d (ix2 k j)) (fun j => x (ix2 r j)) (t (ix2 r (0 : Fin 1)))

/-- The cross-entropy sum of the tile point `n` loads (zero past the grid). -/
def ceAt (c : Dev nD) (n : ℕ) : EReal :=
  if h : n < cfg0.N then tileCe (xblk m c ⟨n, h⟩) (tblk m c ⟨n, h⟩) else 0

/-- The penalty sum of the tile point `n` loads (zero past the grid). -/
def penAt (c : Dev nD) (n : ℕ) : EReal :=
  if h : n < cfg0.N then tilePen (xblk m c ⟨n, h⟩) (tblk m c ⟨n, h⟩) (dblk m c ⟨n, h⟩) else 0

/-- One point, lane by lane: what the accumulator held plus the tile's two sums in lanes 0 and 1. -/
theorem step_apply (x0 : Vec Ideal S5000x22 .f32) (x1 : Vec Ideal S5000x1 .i32) (x2 : Vec Ideal S22x22 .f32)
    (acc : Vec Ideal S1x128 .f32) (l : Fin 128) :
    step (F := Ideal) x0 x1 x2 acc (ix2 (0 : Fin 1) l)
      = acc (ix2 (0 : Fin 1) l) + laneDelta (tileCe x0 x1) (tilePen x0 x1 x2) l := by
  refine (BodyValue.acc_step (k0_pay5 (F := Ideal) x0 x1) (k0_pay6 (F := Ideal) x0 x1 x2) acc l).trans ?_
  rw [BodyValue.ce_tile, BodyValue.pen_tile]
  rfl

/-- The first point: the reset value is zero, so the accumulator ends at the first tile's delta. -/
theorem scratch_zero (c : Dev nD) (h : 0 < cfg0.N) (l : Fin 128) :
    (outsAt0 m c 0 h).2 (ix2 (0 : Fin 1) l) = laneDelta (ceAt m c 0) (penAt m c 0) l := by
  rw [outsAt0_A m c ⟨0, h⟩ rfl (by show ¬(0 % 400 = 399); decide)]
  dsimp only
  rw [scratch_A, step_apply, BodyValue.acc_reset, zero_add]
  unfold ceAt penAt
  rw [dif_pos h, dif_pos h]

/-- A later point: the accumulator as the point before left it, plus this tile's delta. -/
theorem scratch_step (c : Dev nD) (t : Fin cfg0.N) (h0 : ¬t.val % 400 = 0) (l : Fin 128) :
    (outsAt0 m c t.val t.isLt).2 (ix2 (0 : Fin 1) l)
      = (outsAt0 m c (t.val - 1) (Nat.lt_of_le_of_lt (Nat.sub_le _ _) t.isLt)).2 (ix2 (0 : Fin 1) l)
        + laneDelta (ceAt m c t.val) (penAt m c t.val) l := by
  have hc : ceAt m c t.val = tileCe (xblk m c t) (tblk m c t) := by unfold ceAt; rw [dif_pos t.isLt]
  have hp : penAt m c t.val = tilePen (xblk m c t) (tblk m c t) (dblk m c t) := by unfold penAt; rw [dif_pos t.isLt]
  rw [hc, hp]
  by_cases h1 : t.val % 400 = 399
  · rw [outsAt0_C m c t h0 h1]
    dsimp only
    rw [scratch_C, step_apply]
  · rw [outsAt0_B m c t h0 h1]
    dsimp only
    rw [scratch_B, step_apply]

/-- After point `n` the accumulator holds, in lane `l`, the sum of the deltas of the points up to `n`. -/
theorem scratch_eq (c : Dev nD) : ∀ (n : ℕ) (h : n < cfg0.N) (l : Fin 128),
    (outsAt0 m c n h).2 (ix2 (0 : Fin 1) l) = ∑ s ∈ Finset.range (n + 1), laneDelta (ceAt m c s) (penAt m c s) l
  | 0, h, l => by rw [scratch_zero m c h l, Finset.sum_range_one]
  | n + 1, h, l => by
    have hN : cfg0.N = 400 := N_0
    have h0 : ¬(⟨n + 1, h⟩ : Fin cfg0.N).val % 400 = 0 := by dsimp only; omega
    rw [Finset.sum_range_succ, ← scratch_eq c n (Nat.lt_of_succ_lt h) l]
    exact scratch_step m c ⟨n + 1, h⟩ h0 l

/-- At the last point the output's staging buffer and the accumulator receive the same value. -/
theorem out_eq_scratch (c : Dev nD) (t : Fin cfg0.N) (h0 : ¬t.val % 400 = 0) (h1 : t.val % 400 = 399) :
    (outsAt0 m c t.val t.isLt).1 = (outsAt0 m c t.val t.isLt).2 := by
  rw [outsAt0_C m c t h0 h1]
  dsimp only
  rw [out_C, scratch_C]

/-- The last of the 400 grid points. -/
abbrev tLast : Fin cfg0.N := ⟨399, by rw [show cfg0.N = 400 from N_0]; decide⟩

/-- The output's staging buffer after point `t`. -/
def outAt (c : Dev nD) (t : Fin cfg0.N) : Vec Ideal S1x128 .f32 := (outsAt0 m c t.val t.isLt).1

/-- What the output array ends holding: the staging buffer's contents after the last point. (It is only ever
    handled through `outAt` at a variable point: the contents after point 399 are a recursion 399 points deep.) -/
def result (c : Dev nD) : Vec Ideal S1x128 .f32 := outAt m c tLast

/-- The staging buffer after any point numbered 399 is that value. -/
theorem result_of (c : Dev nD) (t : Fin cfg0.N) (h : t.val = 399) : (outsAt0 m c t.val t.isLt).1 = result m c :=
  (show (outsAt0 m c t.val t.isLt).1 = outAt m c t from rfl).trans (congrArg (outAt m c) (Fin.ext h))

/-- In lane `l` the staging buffer after a point numbered 399 holds the sum of all 400 points' deltas. -/
theorem last_apply (c : Dev nD) (t : Fin cfg0.N) (h : t.val = 399) (l : Fin 128) :
    (outsAt0 m c t.val t.isLt).1 (ix2 (0 : Fin 1) l)
      = ∑ s ∈ Finset.range 400, laneDelta (ceAt m c s) (penAt m c s) l := by
  have h0 : ¬t.val % 400 = 0 := by omega
  have h1 : t.val % 400 = 399 := by omega
  rw [out_eq_scratch m c t h0 h1, scratch_eq m c t.val t.isLt l, h]

/-- So does `result`. -/
theorem result_apply (c : Dev nD) (l : Fin 128) :
    result m c (ix2 (0 : Fin 1) l) = ∑ s ∈ Finset.range 400, laneDelta (ceAt m c s) (penAt m c s) l :=
  (congrFun (result_of m c tLast rfl) (ix2 (0 : Fin 1) l)).symm.trans (last_apply m c tLast rfl l)

/-- The one write-back, at the last point, writes it: the output's only block is the whole 1 x 128 array, read from
    the origin. -/
theorem flushed_eq (c : Dev nD) (t : Fin cfg0.N) (hf : (cfg0.win 3).flush t = true) :
    (dats m 0 c).flushed 3 t = ((cfg0.win 3).blk t).view.read (Elt Ideal) (result m c) := by
  have hN : cfg0.N = 400 := N_0
  have h3 : t.val = 399 := by have := (flush0_3 t).mp hf; have := t.isLt; omega
  show (cfg0.win 3).cut (grid0.coords t) ((dats m 0 c).after 3 t) = _
  rw [after0_3, result_of m c t h3]
  -- from here on the staging contents are one opaque vector, and only then is the point made the literal one
  generalize result m c = R
  obtain rfl : t = tLast := Fin.ext h3
  have hz' : (fun a => win0_3.index tLast a * main_v20.ty.shape.size a) = fun _ => 0 :=
    funext fun a => by fin_cases a <;> decide +kernel
  exact (Memref.read_access_unit_zero (Elt Ideal) main_v20 hz' (fun a => by rw [congrFun hz' a]; simp) R).symm

/-- So the output array after the run is that value: the last point's block covers the whole array. -/
theorem final (c : Dev nD) : (dats m 0 c).arrAt 3 cfg0.N = result m c :=
  (dats m 0 c).arrAt_eq_of_cover 3 (result m c) (flushed_eq m c) fun i =>
    ⟨tLast, (flush0_3 tLast).mpr (by show 399 % 400 = 399; decide), by
      show i ∈ ((View.whole main_v20).slice (win0_3.rect tLast)).set
      rw [View.set_slice_whole, Rect.mem_set_unit]
      intro a
      have hi0 : (i 0 : Nat) < 1 := (i 0).isLt
      have hi1 : (i 1 : Nat) < 128 := (i 1).isLt
      match a with
      | ⟨0, _⟩ =>
        show win0_3.index tLast 0 * win0_3.size 0 ≤ (i 0 : Nat)
          ∧ (i 0 : Nat) < win0_3.index tLast 0 * win0_3.size 0 + win0_3.xsize (grid0.coords tLast) 0
        rw [show win0_3.index tLast 0 * win0_3.size 0 = 0 from by decide +kernel,
          show win0_3.xsize (grid0.coords tLast) 0 = 1 from by decide +kernel]
        omega
      | ⟨1, _⟩ =>
        show win0_3.index tLast 1 * win0_3.size 1 ≤ (i 1 : Nat)
          ∧ (i 1 : Nat) < win0_3.index tLast 1 * win0_3.size 1 + win0_3.xsize (grid0.coords tLast) 1
        rw [show win0_3.index tLast 1 * win0_3.size 1 = 0 from by decide +kernel,
          show win0_3.xsize (grid0.coords tLast) 1 = 128 from by decide +kernel]
        omega⟩

end Cert.KernelIdeal.Accumulate

end
-- ==== Proof.LibGatherRead.lean ====
/-
  Row, column, vector and batched gathers read at an index given by coordinates.

  A gather reads, for each result index, one operand entry: on every operand axis the position is the clamped start
  (the start-index word for that axis, read as a signed integer and clamped so that the slice fits; zero on an axis the
  start index map does not name) plus the result's coordinate on a batching axis plus the result's coordinate on an
  offset axis.  For the four arrangements below every slice has extent one on the indexed axis, so the clamp is into
  `[0, N - 1]`, and the other coordinates are copied from the result index.
-/
import Idealize.ShloMosaic.PureOps.ShapeOps
import Idealize.ShloMosaic.Lib.ValueIdx

noncomputable section

namespace Cert.LibGatherRead

open Idealize.ShloMosaic Idealize.ShloMosaic.ValueIdx

variable {α : Type}

/-! ## Rows of a table: `table[idx, :]` -/

/-- The dimension numbers of a gather of whole rows: operand `[N, C]`, start indices `[R, 1]`, result `[R, C]`; the
    result's axis 1 is the offset axis, the operand's axis 0 is collapsed and is the one the start index names, and a
    slice is one row `[1, C]`. -/
abbrev rowsDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- A ROW GATHER READ AT `(r, c)`: the operand at row `idx[r, 0]` (read signed, clamped into `[0, N − 1]`) and
    column `c`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowsDims N C R wf) x idx (ix2 r c)
      = x (ix2 (⟨min (idx (ix2 r (0 : Fin 1))).toInt.toNat (N - 1), by omega⟩ : Fin N) c) := by
  unfold Host.gather
  congr 1
  funext a
  refine Fin.ext ?_
  match a with
  | ⟨0, _⟩ =>
    -- the indexed axis: the clamped start, nothing added
    show (rowsDims N C R wf).start (ix2 r c) idx 0 + (rowsDims N C R wf).batchCoord (ix2 r c) 0
        + (rowsDims N C R wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx (ix2 r c) ⟨List.idxOf (0 : Fin 2) (rowsDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    -- the offset axis: start zero, the result's column
    show (rowsDims N C R wf).start (ix2 r c) idx 1 + (rowsDims N C R wf).batchCoord (ix2 r c) 1
        + (rowsDims N C R wf).offCoord (ix2 r c) 1 = _
    rw [GatherDims.batchCoord_eq_zero _ _ _ List.not_mem_nil]
    unfold GatherDims.start
    rw [dif_neg (show (1 : Fin 2) ∉ (rowsDims N C R wf).startIndexMap from
      fun h => absurd (List.mem_singleton.mp h) (show ¬ ((1 : Fin 2) = 0) by decide))]
    simp only [Nat.add_zero, Nat.zero_add]
    rfl

/-! ## Columns of a table: `table[:, idx]` -/

/-- The dimension numbers of a gather of whole columns: operand `[R, N]`, start indices `[C, 1]`, result `[R, C]`;
    the result's axis 0 is the offset axis, the operand's axis 1 is collapsed and is the one the start index names, and
    a slice is one column `[R, 1]`. -/
abbrev colsDims (N C R : Nat)
    (wf : GatherDims.WF ⟨2, ![R, N]⟩ ⟨2, ![C, 1]⟩ ⟨2, ![R, C]⟩ [0] [1] [] [1] [] 1 ![R, 1]) :
    GatherDims ⟨2, ![R, N]⟩ ⟨2, ![C, 1]⟩ ⟨2, ![R, C]⟩ where
  offsetDims := [0]
  collapsedSliceDims := [1]
  operandBatchingDims := []
  startIndicesBatchingDims := []
  startIndexMap := [1]
  indexVectorDim := 1
  sliceSizes := ![R, 1]
  wf := wf

/-- A COLUMN GATHER READ AT `(r, c)`: the operand at row `r` and column `idx[c, 0]` (read signed, clamped into
    `[0, N − 1]`). -/
theorem gather_cols_apply {N C R w : Nat} (hN : 0 < N)
    (wf : GatherDims.WF ⟨2, ![R, N]⟩ ⟨2, ![C, 1]⟩ ⟨2, ![R, C]⟩ [0] [1] [] [1] [] 1 ![R, 1])
    (x : (⟨2, ![R, N]⟩ : Shape).Idx → α) (idx : IVec ⟨2, ![C, 1]⟩ w) (r : Fin R) (c : Fin C) :
    Host.gather (colsDims N C R wf) x idx (ix2 r c)
      = x (ix2 r (⟨min (idx (ix2 c (0 : Fin 1))).toInt.toNat (N - 1), by omega⟩ : Fin N)) := by
  unfold Host.gather
  congr 1
  funext a
  refine Fin.ext ?_
  match a with
  | ⟨0, _⟩ =>
    -- the offset axis: start zero, the result's row
    show (colsDims N C R wf).start (ix2 r c) idx 0 + (colsDims N C R wf).batchCoord (ix2 r c) 0
        + (colsDims N C R wf).offCoord (ix2 r c) 0 = _
    rw [GatherDims.batchCoord_eq_zero _ _ _ List.not_mem_nil]
    unfold GatherDims.start
    rw [dif_neg (show (0 : Fin 2) ∉ (colsDims N C R wf).startIndexMap from
      fun h => absurd (List.mem_singleton.mp h) (show ¬ ((0 : Fin 2) = 1) by decide))]
    simp only [Nat.add_zero, Nat.zero_add]
    rfl
  | ⟨1, _⟩ =>
    -- the indexed axis: the clamped start, nothing added
    show (colsDims N C R wf).start (ix2 r c) idx 1 + (colsDims N C R wf).batchCoord (ix2 r c) 1
        + (colsDims N C R wf).offCoord (ix2 r c) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsDims N C R wf).startIndexMap from List.mem_singleton.mpr rfl)]
    have hsi : (colsDims N C R wf).siIdx (ix2 r c) ⟨List.idxOf (1 : Fin 2) (colsDims N C R wf).startIndexMap,
        List.idxOf_lt_length_iff.2 (List.mem_singleton.mpr rfl)⟩ = ix2 c (0 : Fin 1) := by
      funext b; refine Fin.ext ?_
      match b with
      | ⟨0, _⟩ => rfl
      | ⟨1, _⟩ => rfl
    rw [hsi]
    rfl

/-! ## Entries of a vector: `v[idx]` -/

/-- The dimension numbers of a gather of single entries of a vector: operand `[N]`, start indices `[R, 1]`, result
    `[R]`; no offset axis, the operand's only axis is collapsed and is the one the start index names, and a slice is one
    entry. -/
abbrev vecDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- A VECTOR GATHER READ AT `r`: the operand at `idx[r, 0]` (read signed, clamped into `[0, N − 1]`). -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecDims N R wf) x idx (ix1 r)
      = x (ix1 (⟨min (idx (ix2 r (0 : Fin 1))).toInt.toNat (N - 1), by omega⟩ : Fin N)) := by
  unfold Host.gather
  congr 1
  funext a
  refine Fin.ext ?_
  match a with
  | ⟨0, _⟩ =>
    show (vecDims N R wf).start (ix1 r) idx 0 + (vecDims N R wf).batchCoord (ix1 r) 0
        + (vecDims N R wf).offCoord (ix1 r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N R wf).startIndexMap from List.mem_singleton.mpr rfl)]
    have hsi : (vecDims N R wf).siIdx (ix1 r) ⟨List.idxOf (0 : Fin 1) (vecDims N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl

/-! ## One entry of each row, the row given by the batch: `take_along_axis(table, idx, axis = 1)` -/

/-- The dimension numbers of a batched gather of one entry per row: operand `[R, N]`, start indices `[R, 1, 1]`,
    result `[R, 1]`; no offset axis, axis 0 of the operand and of the start indices are the paired batching axes, the
    operand's axis 1 is collapsed and is the one the start index names, and a slice is one entry. -/
abbrev batchedDims (N R : Nat)
    (wf : GatherDims.WF ⟨2, ![R, N]⟩ ⟨3, ![R, 1, 1]⟩ ⟨2, ![R, 1]⟩ [] [1] [0] [1] [0] 2 ![1, 1]) :
    GatherDims ⟨2, ![R, N]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- A BATCHED GATHER READ AT `(r, u)`: the operand at row `r` and column `idx[r, 0, 0]` (read signed, clamped into
    `[0, N − 1]`). -/
theorem gather_batched_apply {N R w : Nat} (hN : 0 < N)
    (wf : GatherDims.WF ⟨2, ![R, N]⟩ ⟨3, ![R, 1, 1]⟩ ⟨2, ![R, 1]⟩ [] [1] [0] [1] [0] 2 ![1, 1])
    (x : (⟨2, ![R, N]⟩ : Shape).Idx → α) (idx : IVec ⟨3, ![R, 1, 1]⟩ w) (r : Fin R) (u : Fin 1) :
    Host.gather (batchedDims N R wf) x idx (ix2 r u)
      = x (ix2 r (⟨min (idx (ix3 r (0 : Fin 1) (0 : Fin 1))).toInt.toNat (N - 1), by omega⟩ : Fin N)) := by
  obtain rfl : u = 0 := Subsingleton.elim _ _
  unfold Host.gather
  congr 1
  funext a
  refine Fin.ext ?_
  match a with
  | ⟨0, _⟩ =>
    -- the batching axis: start zero, the result's row, no offset
    show (batchedDims N R wf).start (ix2 r 0) idx 0 + (batchedDims N R wf).batchCoord (ix2 r 0) 0
        + (batchedDims N R wf).offCoord (ix2 r 0) 0 = _
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    unfold GatherDims.batchCoord
    rw [dif_pos (show (0 : Fin 2) ∈ (batchedDims N R wf).operandBatchingDims from List.mem_singleton.mpr rfl)]
    rfl
  | ⟨1, _⟩ =>
    -- the indexed axis: the clamped start, nothing added
    show (batchedDims N R wf).start (ix2 r 0) idx 1 + (batchedDims N R wf).batchCoord (ix2 r 0) 1
        + (batchedDims N R wf).offCoord (ix2 r 0) 1 = _
    rw [GatherDims.batchCoord_eq_zero _ _ _ (fun h => absurd (List.mem_singleton.mp h)
        (show ¬ ((1 : Fin 2) = 0) by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (batchedDims N R wf).startIndexMap from List.mem_singleton.mpr rfl)]
    have hsi : (batchedDims N R wf).siIdx (ix2 r 0) ⟨List.idxOf (1 : Fin 2) (batchedDims N R wf).startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl

end Cert.LibGatherRead

end
-- ==== Proof.GatherKernel.lean ====
/-
  The two gathers of the combined table's host prefix read at an index.
-/
import proofs.«410296_j15333033246933_2_alg».proof.Proof.Gen.KernelIdeal
import proofs.«410296_j15333033246933_2_alg».proof.Proof.Spec
import proofs.«410296_j15333033246933_2_alg».proof.Proof.LibGatherRead

noncomputable section

namespace Cert.KernelIdeal.GatherRead

open Cert.KernelIdeal Cert.PenaltyLoss Idealize.ShloMosaic Idealize.ShloMosaic.ValueIdx

variable {α : Type}

theorem area_rows (x : S6x6.Idx → α) (idx : IVec S22x1 32) (k : Fin 22) (a : Fin 6) :
    Host.gather gather_S6x6_S22x1_S22x6_1_0_n_n_0_1_16 x idx (ix2 k a)
      = x (ix2 (clampWord 6 (by decide) (idx (ix2 k (0 : Fin 1)))) a) :=
  -- a row gather of the 6 x 6 table; the clamp into [0, 5] is the index word's second step by definition
  LibGatherRead.gather_rows_apply (by decide) Facts₀.gather_S6x6_S22x1_S22x6_1_0_n_n_0_1_16_wf x idx k a

theorem area_cols (x : S22x6.Idx → α) (idx : IVec S22x1 32) (k j : Fin 22) :
    Host.gather gather_S22x6_S22x1_S22x22_0_1_n_n_1_1_221 x idx (ix2 k j)
      = x (ix2 k (clampWord 6 (by decide) (idx (ix2 j (0 : Fin 1))))) :=
  -- a column gather of the 22 x 6 table
  LibGatherRead.gather_cols_apply (by decide) Facts₀.gather_S22x6_S22x1_S22x22_0_1_n_n_1_1_221_wf x idx k j

end Cert.KernelIdeal.GatherRead

end
-- ==== Proof.HostSide.lean ====
/-
  The host operations around the region, read at coordinates.  Before the region: tile t of the logits is rows
  5000 t … 5000 t + 4999 of the batch, the target column is the target vector stood up as a column, and the table the
  body multiplies with is the combined distance table.  After the region: the result is the output's lane 0 divided by
  the batch size plus its lane 1 divided by the batch size.
-/
import proofs.«410296_j15333033246933_2_alg».proof.Proof.Gen.KernelIdeal.Frame
import proofs.«410296_j15333033246933_2_alg».proof.Proof.Spec
import proofs.«410296_j15333033246933_2_alg».proof.Proof.GatherKernel
import Idealize.ShloMosaic.Lib.Pipeline.Value
import Idealize.ShloMosaic.Lib.ValueLayout
import Idealize.ShloMosaic.Lib.StableHlo.Run

noncomputable section

namespace Cert.KernelIdeal.HostSide

open Cert.KernelIdeal Cert.KernelIdeal.Gen Cert.PenaltyLoss Idealize.ShloMosaic Idealize.ShloMosaic.TcCoe Idealize.ShloMosaic.ValueIdx Idealize.SL.Sem

variable (m : (ℓ : Loc nD τ sig) → Buf (Elt Ideal) ℓ)

/-- Where the logits window's block sits at grid point `t`: block row `t`, block column 0 (checked at all 400 points). -/
theorem index_win0 : ∀ t : Fin grid0.N, win0_0.index t 0 = t.val ∧ win0_0.index t 1 = 0 := by decide +kernel

/-- Tile `t` of the logits, row `r`, class `j`: the batch's row `5000 t + r`. -/
theorem logits_block (c : Dev nD) (t : Fin cfg0.N) (r : Fin 5000) (j : Fin 22) :
    (iblk m c 0 t : Vec Ideal S5000x22 .f32) (ix2 r j)
      = m ((c.tc : Thread nD τ).loc main_arg0) (ix2 (rowOf (t.cast N_0) r) j) := by
  -- the block read at (r, j) is the array read at (5000 * (block row) + r, 22 * (block column) + j), and no host
  -- operation before the region writes the logits
  unfold iblk
  rw [View.read_apply]
  show V m c main_arg0 (((cfg0.win 0).blk t).view.emb (ix2 r j)) = _
  refine (congrFun (V_main_arg0 m c) _).trans ?_
  congr 1
  funext a
  apply Fin.ext
  match a with
  | ⟨0, _⟩ => show win0_0.index t 0 * 5000 + 1 * r.val = t.val * 5000 + r.val; rw [(index_win0 t).1]; omega
  | ⟨1, _⟩ => show win0_0.index t 1 * 22 + 1 * j.val = j.val; rw [(index_win0 t).2]; omega

/-- Where the target column's block sits at grid point `t`: block row `t`, block column 0. -/
theorem index_win1 : ∀ t : Fin grid0.N, win0_1.index t 0 = t.val ∧ win0_1.index t 1 = 0 := by decide +kernel

/-- The target column as the region finds it: the target vector recast as a column (the last host operation before
    the region; none of the others writes the targets). -/
theorem targetColumn_eq (c : Dev nD) :
    (V m c main_v19 : S2000000x1.Idx → BitVec 32)
      = shapeCast S2000000x1 (m ((c.tc : Thread nD τ).loc main_arg1)) shapeCasts_S2000000_S2000000x1 := by
  show StableHlo.after hostOps0 (fun b => m (c, b)) (Proc.devRef .tc main_v19) = _
  after_results
  rfl

/-- Tile `t` of the target column, row `r`: the target word of the batch's row `5000 t + r`. -/
theorem targets_block (c : Dev nD) (t : Fin cfg0.N) (r : Fin 5000) :
    (iblk m c 1 t : Vec Ideal S5000x1 .i32) (ix2 r (0 : Fin 1))
      = m ((c.tc : Thread nD τ).loc main_arg1) (ix1 (rowOf (t.cast N_0) r)) := by
  -- entry (5000 t + r, 0) of the column has row-major position 5000 t + r, the position of entry 5000 t + r of the vector
  unfold iblk
  rw [View.read_apply]
  show V m c main_v19 (((cfg0.win 1).blk t).view.emb (ix2 r (0 : Fin 1))) = _
  refine (congrFun (targetColumn_eq m c) _).trans ?_
  refine shapeCast_apply (s := ⟨1, ![2000000]⟩) (t := ⟨2, ![2000000, 1]⟩) _ _ _ _ ?_
  rw [Shape.rowMajor_val_one, Shape.rowMajor_val_two]
  show (t.val * 5000 + r.val) = (win0_1.index t 0 * 5000 + 1 * r.val) * 1 + (win0_1.index t 1 * 1 + 1 * 0)
  rw [(index_win1 t).1, (index_win1 t).2]; omega

/-- The table window's block is the whole table at every grid point: block (0, 0). -/
theorem index_win2 : ∀ t : Fin grid0.N, win0_2.index t 0 = 0 ∧ win0_2.index t 1 = 0 := by decide +kernel

/-- The area words normalised as the host does it: a negative word is increased by the extent 6. -/
abbrev wrappedWords (A : S22.Idx → BitVec 32) : IVec S22 32 :=
  select (cmpi .slt A (broadcastInDim S22 ![] bcast_S_S22 (constantI S_ 32 0#32)))
    (addi A (broadcastInDim S22 ![] bcast_S_S22 (constantI S_ 32 6#32))) A

/-- The normalised words stood up as a column read, at row `q`, the normalised area word of class `q`. -/
theorem wrappedColumn_read (A : S22.Idx → BitVec 32) (q : Fin 22) :
    broadcastInDim S22x1 ![0] bcast_S22_S22x1_0 (wrappedWords A) (ix2 q (0 : Fin 1))
      = wrapWord (BitVec.ofNat 32 6) (A (ix1 q)) :=
  (broadcastInDim_apply (s := ⟨1, ![22]⟩) (t := ⟨2, ![22, 1]⟩) _ _ _ _ (ix1 q)
    (fun a => by match a with | ⟨0, _⟩ => rfl)).trans rfl

/-- The table the region finds: 1.0 times the node table, plus 1.0 times the area table gathered first by the row
    class's area and then by the column class's area. -/
theorem table_eq (c : Dev nD) :
    (V m c main_v18 : S22x22.Idx → EReal)
      = addf (mulf (broadcastInDim S22x22 ![] bcast_S_S22x22 (constant (F := Ideal) S_ .f32 0x3F800000#32))
                (m ((c.tc : Thread nD τ).loc main_arg2)))
          (mulf (broadcastInDim S22x22 ![] bcast_S_S22x22 (constant (F := Ideal) S_ .f32 0x3F800000#32))
            (Host.gather gather_S22x6_S22x1_S22x22_0_1_n_n_1_1_221
              (Host.gather gather_S6x6_S22x1_S22x6_1_0_n_n_0_1_16 (m ((c.tc : Thread nD τ).loc main_arg3))
                (broadcastInDim S22x1 ![0] bcast_S22_S22x1_0 (wrappedWords (m ((c.tc : Thread nD τ).loc main_arg4)))))
              (broadcastInDim S22x1 ![0] bcast_S22_S22x1_0 (wrappedWords (m ((c.tc : Thread nD τ).loc main_arg4)))))) := by
  show StableHlo.after hostOps0 (fun b => m (c, b)) (Proc.devRef .tc main_v18) = _
  after_results_simp

/-- The table block, the same at every point: the combined distance table. -/
theorem table_block (c : Dev nD) (t : Fin cfg0.N) (k j : Fin 22) :
    (iblk m c 2 t : Vec Ideal S22x22 .f32) (ix2 k j)
      = comb (m ((c.tc : Thread nD τ).loc main_arg2)) (m ((c.tc : Thread nD τ).loc main_arg3))
          (m ((c.tc : Thread nD τ).loc main_arg4)) k j := by
  unfold iblk
  rw [View.read_apply]
  show V m c main_v18 (((cfg0.win 2).blk t).view.emb (ix2 k j)) = _
  -- block (0, 0) of extent 22 x 22: entry (k, j) of the block is entry (k, j) of the table
  have he : ((cfg0.win 2).blk t).view.emb (ix2 k j) = (ix2 k j : S22x22.Idx) := by
    funext a
    apply Fin.ext
    match a with
    | ⟨0, _⟩ => show win0_2.index t 0 * 22 + 1 * k.val = k.val; rw [(index_win2 t).1]; omega
    | ⟨1, _⟩ => show win0_2.index t 1 * 22 + 1 * j.val = j.val; rw [(index_win2 t).2]; omega
  refine ((congrArg (V m c main_v18) he).trans (congrFun (table_eq m c) (ix2 k j))).trans ?_
  -- the sum and the two products are entrywise; the constant 1.0 is the weight
  show Ideal.ofBits .f32 0x3F800000#32 * m ((c.tc : Thread nD τ).loc main_arg2) (ix2 k j)
      + Ideal.ofBits .f32 0x3F800000#32 * Host.gather gather_S22x6_S22x1_S22x22_0_1_n_n_1_1_221
          (Host.gather gather_S6x6_S22x1_S22x6_1_0_n_n_0_1_16 (m ((c.tc : Thread nD τ).loc main_arg3))
            (broadcastInDim S22x1 ![0] bcast_S22_S22x1_0 (wrappedWords (m ((c.tc : Thread nD τ).loc main_arg4)))))
          (broadcastInDim S22x1 ![0] bcast_S22_S22x1_0 (wrappedWords (m ((c.tc : Thread nD τ).loc main_arg4)))) (ix2 k j) = _
  -- the second gather picks the column by class j's clamped area word, the first the row by class k's; a clamped
  -- normalised word is the area index
  rw [GatherRead.area_cols, GatherRead.area_rows, wrappedColumn_read, wrappedColumn_read]
  rfl

/-- A lane of a one-row array, cut out as a 1 x 1 block and recast as a scalar, is the array's entry at that lane. -/
theorem lane_read (X : S1x128.Idx → EReal) (off : Fin 2 → Nat) (l : Fin 128) (hoff : off = ![0, l.val])
    (hs : S1x128.Slices off S1x1) (hc : S1x1.ShapeCasts S_) (i : S_.Idx) :
    shapeCast S_ (extractStridedSlice S1x1 off X hs) hc i = X (ix2 (0 : Fin 1) l) := by
  subst hoff
  refine (shapeCast_apply (s := ⟨2, ![1, 1]⟩) (t := ⟨0, ![]⟩) _ hc i (ix2 (0 : Fin 1) (0 : Fin 1)) ?_).trans ?_
  · -- both shapes have one entry, so both row-major positions are 0
    have h1 := ((⟨2, ![1, 1]⟩ : Shape).rowMajor (ix2 (0 : Fin 1) (0 : Fin 1))).isLt
    have h2 := ((⟨0, ![]⟩ : Shape).rowMajor i).isLt
    have e1 : (⟨2, ![1, 1]⟩ : Shape).numel = 1 := by decide
    have e2 : (⟨0, ![]⟩ : Shape).numel = 1 := by decide
    omega
  · refine extractStridedSlice_apply _ X hs _ (ix2 (0 : Fin 1) l) fun a => ?_
    match a with
    | ⟨0, _⟩ => rfl
    | ⟨1, _⟩ => show l.val = l.val + 0; omega

/-- The result after the host tail: lane 0 and lane 1 of the output array, each divided by the batch size, added. -/
theorem tail_value (c : Dev nD) :
    Pipeline.afterTail₀ cfgs (dats m) 0 (V0 m) [hostOps1] c main_v27
      = fun _ => Ideal.div ((dats m 0 c).arrAt 3 cfg0.N (ix2 (0 : Fin 1) (0 : Fin 128))) batch
          + Ideal.div ((dats m 0 c).arrAt 3 cfg0.N (ix2 (0 : Fin 1) (1 : Fin 128))) batch := by
  unfold Pipeline.afterTail₀
  show StableHlo.after hostOps1 _ (Proc.devRef .tc main_v27) = _
  after_results
  -- the tail reads the output array as the region left it
  have hA : Pipeline.withArrays (cfgs 0).spec c (V0 m c) (fun w => (dats m 0 c).arrAt w (cfgs 0).N) (Proc.devRef .tc main_v20)
      = (dats m 0 c).arrAt 3 cfg0.N := Pipeline.withArrays_arr spec0 launch0.win.arr_inj c _ _ 3
  rw [hA]
  generalize (dats m 0 c).arrAt 3 cfg0.N = X
  funext i
  -- the host division is the exact quotient and the constant is the batch size
  show Ideal.div (shapeCast S_ (extractStridedSlice S1x1 ![0, 0] X slices_S1x128_S1x1_0_0) shapeCasts_S1x1_S_ i) (Ideal.ofBits .f32 0x49F42400#32)
      + Ideal.div (shapeCast S_ (extractStridedSlice S1x1 ![0, 1] X slices_S1x128_S1x1_0_1) shapeCasts_S1x1_S_ i) (Ideal.ofBits .f32 0x49F42400#32) = _
  rw [lane_read X ![0, 0] (0 : Fin 128) rfl, lane_read X ![0, 1] (1 : Fin 128) rfl]
  rfl

end Cert.KernelIdeal.HostSide

end
-- ==== Proof.KernelValue.lean ====
/-
  The value of the one-hot arrangement's program: its result is `lossTiled` of its five arguments.

  The accumulator's lane 0 ends at the sum over the 400 tiles of each tile's cross-entropy sum, lane 1 at the sum of the
  penalty sums (the other lanes at zero).  A tile's rows are rows 5000 t … 5000 t + 4999 of the batch, so summing over
  tiles and then over a tile's rows is summing over all 2000000 rows (pairs (t, r) and rows correspond one to one).  The
  host operations after the region divide lane 0 and lane 1 by the batch size and add them.
-/
import proofs.«410296_j15333033246933_2_alg».proof.Proof.Accumulate
import proofs.«410296_j15333033246933_2_alg».proof.Proof.HostSide
import proofs.«410296_j15333033246933_2_alg».proof.Proof.Spec
import Mathlib.Algebra.BigOperators.Fin
import Mathlib.Data.Fintype.BigOperators

noncomputable section

namespace Cert.KernelIdeal.LossValue

open Cert.KernelIdeal Cert.KernelIdeal.Gen Cert.PenaltyLoss
open Idealize.ShloMosaic Idealize.ShloMosaic.TcCoe Idealize.ShloMosaic.ValueIdx Idealize.SL.Sem
open Idealize.ShloMosaic.Pipeline (Dat)

/-- A sum over tiles and, inside a tile, over its rows is the sum over all rows. -/
theorem sum_tiles {M : Type} [AddCommMonoid M] (f : Fin 2000000 → M) :
    ∑ t : Fin 400, ∑ r : Fin 5000, f (rowOf t r) = ∑ i : Fin 2000000, f i := by
  -- the double sum is one sum over pairs (tile, offset) …
  refine (Fintype.sum_prod_type' (fun (t : Fin 400) (r : Fin 5000) => f (rowOf t r))).symm.trans ?_
  -- … and the pair (t, r) corresponds to the row r + 5000 t
  refine Fintype.sum_equiv (finProdFinEquiv : Fin 400 × Fin 5000 ≃ Fin (400 * 5000)) _ _ ?_
  rintro ⟨t, r⟩
  refine congrArg f (Fin.ext ?_)
  show t.val * 5000 + r.val = r.val + 5000 * t.val
  omega

variable (m : (ℓ : Loc nD τ sig) → Buf (Elt Ideal) ℓ) (ρ : Dev nD → PrngReg)

/-- The five arguments as the specification's arrays. -/
abbrev argL (c : Dev nD) : SLogits.Idx → EReal := m ((c.tc : Thread nD τ).loc main_arg0)
abbrev argT (c : Dev nD) : STargets.Idx → BitVec 32 := m ((c.tc : Thread nD τ).loc main_arg1)
abbrev argDn (c : Dev nD) : SNode.Idx → EReal := m ((c.tc : Thread nD τ).loc main_arg2)
abbrev argDa (c : Dev nD) : SArea.Idx → EReal := m ((c.tc : Thread nD τ).loc main_arg3)
abbrev argA (c : Dev nD) : SAreaOf.Idx → BitVec 32 := m ((c.tc : Thread nD τ).loc main_arg4)

/-- Point `t` as a point of the pipeline's grid. -/
abbrev pt (t : Fin 400) : Fin cfg0.N := t.cast N_0.symm

/-- The tile of point `t`: its cross-entropy sum is the sum over the batch's rows 5000 t … 5000 t + 4999. -/
theorem ceAt_eq (c : Dev nD) (t : Fin 400) :
    Accumulate.ceAt m c t.val = ∑ r : Fin 5000, ceRow (row (argL m c) (rowOf t r)) (target (argT m c) (rowOf t r)) := by
  have ht : t.val < cfg0.N := (pt t).isLt
  unfold Accumulate.ceAt
  rw [dif_pos ht]
  unfold Accumulate.tileCe
  refine Finset.sum_congr rfl fun r _ => ?_
  have hx : (fun j => Accumulate.xblk m c ⟨t.val, ht⟩ (ix2 r j)) = row (argL m c) (rowOf t r) :=
    funext fun j => HostSide.logits_block m c ⟨t.val, ht⟩ r j
  have hw : Accumulate.tblk m c ⟨t.val, ht⟩ (ix2 r (0 : Fin 1)) = target (argT m c) (rowOf t r) :=
    HostSide.targets_block m c ⟨t.val, ht⟩ r
  rw [hx, hw]

/-- Likewise its penalty sum, against the combined table. -/
theorem penAt_eq (c : Dev nD) (t : Fin 400) :
    Accumulate.penAt m c t.val
      = ∑ r : Fin 5000, penRow (comb (argDn m c) (argDa m c) (argA m c)) (row (argL m c) (rowOf t r))
          (target (argT m c) (rowOf t r)) := by
  have ht : t.val < cfg0.N := (pt t).isLt
  unfold Accumulate.penAt
  rw [dif_pos ht]
  unfold Accumulate.tilePen
  refine Finset.sum_congr rfl fun r _ => ?_
  have hx : (fun j => Accumulate.xblk m c ⟨t.val, ht⟩ (ix2 r j)) = row (argL m c) (rowOf t r) :=
    funext fun j => HostSide.logits_block m c ⟨t.val, ht⟩ r j
  have hw : Accumulate.tblk m c ⟨t.val, ht⟩ (ix2 r (0 : Fin 1)) = target (argT m c) (rowOf t r) :=
    HostSide.targets_block m c ⟨t.val, ht⟩ r
  have hd : (fun k j => Accumulate.dblk m c ⟨t.val, ht⟩ (ix2 k j)) = comb (argDn m c) (argDa m c) (argA m c) :=
    funext fun k => funext fun j => HostSide.table_block m c ⟨t.val, ht⟩ k j
  rw [hx, hw, hd]

/-- The cross-entropy sums of all 400 tiles: the sum over all rows. -/
theorem sum_ce (c : Dev nD) :
    ∑ s ∈ Finset.range 400, Accumulate.ceAt m c s
      = ∑ i : Fin 2000000, ceRow (row (argL m c) i) (target (argT m c) i) := by
  rw [Finset.sum_range]
  refine Eq.trans (Finset.sum_congr rfl fun t _ => ceAt_eq m c t) ?_
  exact sum_tiles fun i => ceRow (row (argL m c) i) (target (argT m c) i)

/-- The penalty sums of all 400 tiles: the sum over all rows. -/
theorem sum_pen (c : Dev nD) :
    ∑ s ∈ Finset.range 400, Accumulate.penAt m c s
      = ∑ i : Fin 2000000, penRow (comb (argDn m c) (argDa m c) (argA m c)) (row (argL m c) i) (target (argT m c) i) := by
  rw [Finset.sum_range]
  refine Eq.trans (Finset.sum_congr rfl fun t _ => penAt_eq m c t) ?_
  exact sum_tiles fun i => penRow (comb (argDn m c) (argDa m c) (argA m c)) (row (argL m c) i) (target (argT m c) i)

/-- Lane 0 collects the cross-entropy sums: over all 400 points, the sum over all rows. -/
theorem lane0_sum (c : Dev nD) :
    ∑ s ∈ Finset.range 400, laneDelta (Accumulate.ceAt m c s) (Accumulate.penAt m c s) (0 : Fin 128)
      = ∑ i : Fin 2000000, ceRow (row (argL m c) i) (target (argT m c) i) := by
  rw [← sum_ce m c]
  exact Finset.sum_congr rfl fun s _ => if_pos rfl

/-- Lane 1 collects the penalty sums. -/
theorem lane1_sum (c : Dev nD) :
    ∑ s ∈ Finset.range 400, laneDelta (Accumulate.ceAt m c s) (Accumulate.penAt m c s) (1 : Fin 128)
      = ∑ i : Fin 2000000, penRow (comb (argDn m c) (argDa m c) (argA m c)) (row (argL m c) i) (target (argT m c) i) := by
  rw [← sum_pen m c]
  exact Finset.sum_congr rfl fun s _ => (if_neg (by decide)).trans (if_pos rfl)

/-- The program's result after the host tail. -/
theorem result_eq (c : Dev nD) :
    Pipeline.afterTail₀ cfgs (dats m) 0 (V0 m) [hostOps1] c main_v27
      = fun _ => lossTiled (argL m c) (argT m c) (argDn m c) (argDa m c) (argA m c) := by
  rw [HostSide.tail_value m c, Accumulate.final m c, Accumulate.result_apply m c (0 : Fin 128),
    Accumulate.result_apply m c (1 : Fin 128), lane0_sum m c, lane1_sum m c]
  rfl

/-- THE RUN: every weakly fair execution terminates with the result at `lossTiled` of the arguments, which end unchanged. -/
theorem run : θ_run defs (onTc (τ := τ) (main (F := Ideal))) ⟨m, fun _ => 0, ρ⟩ (fun r => ∀ c : Dev nD,
      r.2.mem ((c.tc : Thread nD τ).loc main_v27) = (fun _ => lossTiled (argL m c) (argT m c) (argDn m c) (argDa m c) (argA m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
      ⟨((h c).2 main_v27 (Pipeline.mem_restRefs_of main_v27 (by decide) (by decide))).trans (result_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c),
       ((h c).2 main_arg4 (Pipeline.mem_restRefs_of main_arg4 (by decide) (by decide))).trans (W_main_arg4 m (dats m) c)⟩)
    (run_main m ρ)

end Cert.KernelIdeal.LossValue

end
-- ==== Proof.RefSoftmax.lean ====
/-
  The reference's log-softmax and probabilities, read at a row and a class.

  Stage by stage at row i: the maximum reduce over the class axis is the largest of the row's 22 logits; taking the
  larger of that and −∞ changes nothing; the two copies along the class axis give every class of the row the same
  shift M; the exponentials of the shifted logits are summed from zero over the 22 classes; the logarithm of that sum
  is again copied along the class axis and subtracted from the shifted logit.  That is the row's log-softmax, and its
  exponential is the row's probability.
-/
import proofs.«410296_j15333033246933_2_alg».proof.Proof.RefRead
import proofs.«410296_j15333033246933_2_alg».proof.Proof.Spec
import proofs.«410296_j15333033246933_2_alg».proof.Proof.LibExtrema
import Idealize.ShloMosaic.PureOps.Ideal.Laws
import Idealize.ShloMosaic.Lib.Pipeline.Value
import Idealize.ShloMosaic.Lib.ValueIdx

noncomputable section

namespace Cert.ReferenceIdeal.RefValue

open Cert.ReferenceIdeal Cert.ReferenceIdeal.Gen Cert.PenaltyLoss Idealize.ShloMosaic Idealize.ShloMosaic.ValueIdx

/-- Dropping the class axis of the logits' shape leaves the rows' shape. -/
theorem reduces_rows : S2000000x22.Reduces [1] S2000000 := by decide

/-- The row-maximum stage at row `i` is the largest of the row's logits, taken from −∞: a maximum reduce over the
    class axis is the fold of `max` over that axis's 22 coordinates, and its initial pattern denotes −∞. -/
theorem rowMax_stage (x0 : (⟨S2000000x22, .f32⟩ : BufTy).Contents (Elt Ideal)) (i : Fin 2000000) :
    ReadP.val_main_call0_v0 (F := Ideal) x0 (ix1 i) = rowMax (row x0 i) := by
  have e := Host.reduce_eq_fold_single (s := S2000000x22) (t := S2000000) (a := 1) (u := S_) (α := EReal)
    (FloatOps.maximumf (F := Ideal) (φ := .f32)) x0 (ReadP.val_main_call0_cst (F := Ideal))
    reducesTo_S2000000x22_S2000000_d1 reduces_rows h_S_ (ix1 i)
  refine e.trans ?_
  show Finset.fold (max : EReal → EReal → EReal) (Ideal.ofBits .f32 0xFF800000#32) (x0 ∘ reduces_rows.lift (ix1 i))
      (Finset.univ : Finset (Fin 22)) = Finset.fold max ⊥ (row x0 i) Finset.univ
  rw [Cert.LibExtrema.ofBits_neg_inf]
  refine congrArg (fun f => Finset.fold (max : EReal → EReal → EReal) ⊥ f (Finset.univ : Finset (Fin 22))) (funext fun k => ?_)
  -- row i with class k put back on the dropped axis is the entry (i, k)
  exact congrArg x0 (funext fun c => Fin.ext (by match c with | ⟨0, _⟩ => rfl | ⟨1, _⟩ => rfl))

/-- The shift every entry of row `i` is reduced by: the larger of −∞ and the row's maximum, which is the row's
    maximum, copied along the class axis. -/
theorem shift_stage (x0 : (⟨S2000000x22, .f32⟩ : BufTy).Contents (Elt Ideal)) (i : Fin 2000000) (k : Fin 22) :
    ReadP.val_main_call0_v4 (F := Ideal) x0 (ix2 i k) = rowMax (row x0 i) := by
  rw [ReadP.val_main_call0_v4_apply, ReadP.val_main_call0_v3_apply,
    show ReadP.idx_main_call0_v3 (ReadP.idx_main_call0_v4 (ix2 i k)) = ix1 i from
      funext fun a => Fin.ext (by match a with | ⟨0, _⟩ => rfl),
    ReadP.val_main_call0_v2_apply, ReadP.val_main_call0_v1_apply, ReadP.val_main_call0_cst_0_apply, rowMax_stage]
  show max (Ideal.ofBits .f32 0xFF800000#32) (rowMax (row x0 i)) = rowMax (row x0 i)
  rw [Cert.LibExtrema.ofBits_neg_inf]
  exact max_eq_right bot_le

/-- The shifted logit at row `i`, class `k`. -/
theorem shifted_stage (x0 : (⟨S2000000x22, .f32⟩ : BufTy).Contents (Elt Ideal)) (i : Fin 2000000) (k : Fin 22) :
    ReadP.val_main_call0_v5 (F := Ideal) x0 (ix2 i k) = row x0 i k - rowMax (row x0 i) := by
  rw [ReadP.val_main_call0_v5_apply, shift_stage]
  rfl

/-- The normaliser of row `i`: zero plus the sum over the 22 classes of the exponentials of the shifted logits. -/
theorem sumExp_stage (x0 : (⟨S2000000x22, .f32⟩ : BufTy).Contents (Elt Ideal)) (i : Fin 2000000) :
    ReadP.val_main_call0_v7 (F := Ideal) x0 (ix1 i) = ∑ k : Fin 22, Ideal.exp (row x0 i k - rowMax (row x0 i)) := by
  rw [ReadP.val_main_call0_v7_apply, ReadP.val_main_call0_cst_1_apply]
  show Ideal.ofBits .f32 0x00000000#32 + _ = _
  rw [Ideal.ofBits_zero_f32, zero_add]
  refine Finset.sum_congr rfl fun k _ => ?_
  rw [show ReadP.idx_main_call0_v7 (ix1 i) k = ix2 i k from
      funext fun a => Fin.ext (by match a with | ⟨0, _⟩ => rfl | ⟨1, _⟩ => rfl),
    ReadP.val_main_call0_v6_apply, shifted_stage]
  rfl

/-- The logarithm of the normaliser of row `i`, copied along the class axis. -/
theorem logSum_stage (x0 : (⟨S2000000x22, .f32⟩ : BufTy).Contents (Elt Ideal)) (i : Fin 2000000) (k : Fin 22) :
    ReadP.val_main_call0_v10 (F := Ideal) x0 (ix2 i k)
      = Ideal.log (∑ k : Fin 22, Ideal.exp (row x0 i k - rowMax (row x0 i))) := by
  rw [ReadP.val_main_call0_v10_apply, ReadP.val_main_call0_v9_apply, ReadP.val_main_call0_v8_apply,
    show ReadP.idx_main_call0_v8 (ReadP.idx_main_call0_v10 (ix2 i k)) = ix1 i from
      funext fun a => Fin.ext (by match a with | ⟨0, _⟩ => rfl),
    sumExp_stage]
  rfl

/-- The log-softmax stage at row `i`, class `j`. -/
theorem logSoftmax_stage (x0 : (⟨S2000000x22, .f32⟩ : BufTy).Contents (Elt Ideal)) (i : Fin 2000000) (j : Fin 22) :
    ReadP.val_main_v0 (F := Ideal) x0 (ix2 i j) = logSoftmax (row x0 i) j := by
  rw [ReadP.val_main_v0_apply, shifted_stage, logSum_stage]
  rfl

/-- The probability stage at row `i`, class `j`. -/
theorem prob_stage (x0 : (⟨S2000000x22, .f32⟩ : BufTy).Contents (Elt Ideal)) (i : Fin 2000000) (j : Fin 22) :
    ReadP.val_main_v6 (F := Ideal) x0 (ix2 i j) = prob (row x0 i) j := by
  rw [ReadP.val_main_v6_apply, logSoftmax_stage]
  rfl

end Cert.ReferenceIdeal.RefValue

end
-- ==== Proof.GatherRef.lean ====
/-
  The five gathers of the indexed arrangement read at an index.
-/
import proofs.«410296_j15333033246933_2_alg».proof.Proof.Gen.ReferenceIdeal
import proofs.«410296_j15333033246933_2_alg».proof.Proof.Spec
import proofs.«410296_j15333033246933_2_alg».proof.Proof.LibGatherRead

noncomputable section

namespace Cert.ReferenceIdeal.GatherRead

open Cert.ReferenceIdeal Cert.PenaltyLoss Idealize.ShloMosaic Idealize.ShloMosaic.ValueIdx

variable {α : Type}

theorem take_along (x : S2000000x22.Idx → α) (idx : IVec S2000000x1x1 32) (i : Fin 2000000) (u : Fin 1) :
    Host.gather gather_S2000000x22_S2000000x1x1_S2000000x1_n_1_0_0_1_2_11 x idx (ix2 i u)
      = x (ix2 i (clampWord 22 (by decide) (idx (ix3 i (0 : Fin 1) (0 : Fin 1))))) :=
  -- one entry of each row of logits, the row given by the batch coordinate
  LibGatherRead.gather_batched_apply (by decide)
    Facts₀.gather_S2000000x22_S2000000x1x1_S2000000x1_n_1_0_0_1_2_11_wf x idx i u

theorem node_rows (x : S22x22.Idx → α) (idx : IVec S2000000x1 32) (i : Fin 2000000) (j : Fin 22) :
    Host.gather gather_S22x22_S2000000x1_S2000000x22_1_0_n_n_0_1_122 x idx (ix2 i j)
      = x (ix2 (clampWord 22 (by decide) (idx (ix2 i (0 : Fin 1)))) j) :=
  -- a row gather of the 22 x 22 table
  LibGatherRead.gather_rows_apply (by decide) Facts₀.gather_S22x22_S2000000x1_S2000000x22_1_0_n_n_0_1_122_wf x idx i j

theorem area_of (x : S22.Idx → α) (idx : IVec S2000000x1 32) (i : Fin 2000000) :
    Host.gather gather_S22_S2000000x1_S2000000_n_0_n_n_0_1_1 x idx (ix1 i)
      = x (ix1 (clampWord 22 (by decide) (idx (ix2 i (0 : Fin 1))))) :=
  -- an entry gather of the vector of 22 area words
  LibGatherRead.gather_vec_apply (by decide) Facts₀.gather_S22_S2000000x1_S2000000_n_0_n_n_0_1_1_wf x idx i

theorem area_rows (x : S6x6.Idx → α) (idx : IVec S2000000x1 32) (i : Fin 2000000) (a : Fin 6) :
    Host.gather gather_S6x6_S2000000x1_S2000000x6_1_0_n_n_0_1_16 x idx (ix2 i a)
      = x (ix2 (clampWord 6 (by decide) (idx (ix2 i (0 : Fin 1)))) a) :=
  -- a row gather of the 6 x 6 table
  LibGatherRead.gather_rows_apply (by decide) Facts₀.gather_S6x6_S2000000x1_S2000000x6_1_0_n_n_0_1_16_wf x idx i a

theorem area_cols (x : S2000000x6.Idx → α) (idx : IVec S22x1 32) (i : Fin 2000000) (j : Fin 22) :
    Host.gather gather_S2000000x6_S22x1_S2000000x22_0_1_n_n_1_1_20000001 x idx (ix2 i j)
      = x (ix2 i (clampWord 6 (by decide) (idx (ix2 j (0 : Fin 1))))) :=
  -- a column gather of the 2000000 x 6 table
  LibGatherRead.gather_cols_apply (by decide)
    Facts₀.gather_S2000000x6_S22x1_S2000000x22_0_1_n_n_1_1_20000001_wf x idx i j

end Cert.ReferenceIdeal.GatherRead

end
-- ==== Proof.LibAllOnes.lean ====
/-
  A one-bit mask that is all ones. A host reduction by `and` from the constant 1 over an array of one-bit words
  every one of which is 1 is 1 at every result index (the converse of reading such a reduction back); a select on an
  all-ones mask keeps its first operand; and the signed comparisons that say a 32-bit word lies in [0, n): such a
  word is not negative, so an index normalisation that adds the extent to negative words leaves it alone, and it is
  at most n - 1.
-/
import Idealize.ShloMosaic.Lib.ReduceAll
import Idealize.ShloMosaic.Lib.ValueIdx

namespace Idealize.ShloMosaic

namespace IntOp

/-- A left fold by `and` over one-bit words that starts at 1 and meets only 1s ends at 1. -/
theorem foldl_andi_of_all {ι : Type} (f : ι → BitVec 1) :
    ∀ (l : List ι) (init : BitVec 1), init = 1#1 → (∀ n ∈ l, f n = 1#1) → l.foldl (fun r n => andi r (f n)) init = 1#1
  | [], _, h, _ => h
  | a :: l, init, h, hl => by
    rw [List.foldl_cons]
    exact foldl_andi_of_all f l _ (andi_eq_one.2 ⟨h, hl a (List.mem_cons_self ..)⟩) fun n hn => hl n (List.mem_cons_of_mem _ hn)

/-- A word that is not negative is not below zero: the normalisation's condition is not 1. -/
theorem slt_zero_ne_one {w : BitVec 32} (h0 : cmpi .sge w 0#32 = 1#1) : ¬ cmpi .slt w 0#32 = 1#1 := by
  rw [cmpi_sge] at h0
  rw [cmpi_slt]
  omega

/-- A word below `n` is at most `hi` when `hi` is `n - 1`. -/
theorem sle_pred_of_slt {w n hi : BitVec 32} (hhi : hi.toInt + 1 = n.toInt) (hn : cmpi .slt w n = 1#1) :
    cmpi .sle w hi = 1#1 := by
  rw [cmpi_slt] at hn
  rw [cmpi_sle]
  omega

end IntOp

namespace Scalar

/-- jnp's index normalisation (a negative index is increased by the extent) leaves a word in [0, n) alone. -/
theorem select_wrap_of_nonneg {w n : BitVec 32} (h0 : IntOp.cmpi .sge w 0#32 = 1#1) :
    Scalar.select (IntOp.cmpi .slt w 0#32) (IntOp.addi w n) w = w :=
  if_neg (IntOp.slt_zero_ne_one h0)

end Scalar

namespace Host

variable {s t u : Shape} {axes : List (Fin s.rank)}

/-- `jnp.all` of an all-ones array: a reduce by `and` from an initial 1 over one-bit words that are all 1 is 1 at
    every result index. -/
theorem reduce_andi_of_all (x : s.Idx → BitVec 1) (init : u.Idx → BitVec 1) (h : s.ReducesTo axes t) (hu : 0 < u.numel)
    (hinit : init (Shape.Idx.first hu) = 1#1) (hx : ∀ i, x i = 1#1) (j : t.Idx) :
    Host.reduce IntOp.andi x init h hu j = 1#1 := by
  rw [Host.reduce_eq_foldl]
  exact IntOp.foldl_andi_of_all x _ _ hinit fun n _ => hx n

end Host

/-- A select whose one-bit mask is 1 at an index keeps its first operand there. -/
theorem select_apply_of_one {s : Shape} {α : Type} (c : IVec s 1) (a b : s.Idx → α) (i : s.Idx) (h : c i = 1#1) :
    select c a b i = a i := by
  show Scalar.select (c i) (a i) (b i) = a i
  rw [h]
  exact ValueIdx.select_one _ _

end Idealize.ShloMosaic
-- ==== Proof.RefTake.lean ====
/-
  The log-softmax taken at the target, and the cross-entropy mean.
-/
import proofs.«410296_j15333033246933_2_alg».proof.Proof.RefRead
import proofs.«410296_j15333033246933_2_alg».proof.Proof.Spec
import proofs.«410296_j15333033246933_2_alg».proof.Proof.RefSoftmax
import proofs.«410296_j15333033246933_2_alg».proof.Proof.GatherRef
import proofs.«410296_j15333033246933_2_alg».proof.Proof.LibAllOnes
import Idealize.ShloMosaic.PureOps.Ideal.Laws
import Idealize.ShloMosaic.Lib.Pipeline.Value
import Idealize.ShloMosaic.Lib.ValueIdx

noncomputable section

namespace Cert.ReferenceIdeal.RefValue

open Cert.ReferenceIdeal Cert.ReferenceIdeal.Gen Cert.PenaltyLoss Idealize.ShloMosaic Idealize.ShloMosaic.ValueIdx

/-- The normalised index word of row `i`, read off the reshaped column: the target word with the extent 22 added when
    it is negative. -/
theorem take_word (x1 : (⟨S2000000, .i32⟩ : BufTy).Contents (Elt Ideal)) (i : Fin 2000000) :
    ReadP.val_main_call1_v5 (F := Ideal) x1 (ix3 i (0 : Fin 1) (0 : Fin 1)) = wrapWord 22#32 (x1 (ix1 i)) := by
  have h5 : ReadP.idx_main_call1_v5 (ix3 i (0 : Fin 1) (0 : Fin 1)) = ix2 i (0 : Fin 1) :=
    funext fun a => Fin.ext (by
      match a with
      | ⟨0, _⟩ => show ((i.val * 1 + 0) * 1 + 0) / 1 = i.val; omega
      | ⟨1, _⟩ => rfl)
  have h1 : ReadP.idx_main_v1 (ix2 i (0 : Fin 1)) = ix1 i :=
    funext fun a => Fin.ext (by match a with | ⟨0, _⟩ => rfl)
  rw [ReadP.val_main_call1_v5_apply, h5, ReadP.val_main_call1_v4_apply, ReadP.val_main_call1_v1_apply,
    ReadP.val_main_call1_v3_apply, ReadP.val_main_v1_apply, h1]
  rfl

/-- Under the label condition the normalisation leaves the word alone. -/
theorem take_word_eq (x1 : (⟨S2000000, .i32⟩ : BufTy).Contents (Elt Ideal))
    (h : ∀ i, 0 ≤ (x1 i).toInt ∧ (x1 i).toInt < 22) (i : Fin 2000000) :
    ReadP.val_main_call1_v5 (F := Ideal) x1 (ix3 i (0 : Fin 1) (0 : Fin 1)) = x1 (ix1 i) := by
  rw [take_word]
  exact Scalar.select_wrap_of_nonneg (IntOp.cmpi_sge.2 (h (ix1 i)).1)

/-- Under the label condition the in-range mask is set at every row. -/
theorem take_mask_one (x1 : (⟨S2000000, .i32⟩ : BufTy).Contents (Elt Ideal))
    (h : ∀ i, 0 ≤ (x1 i).toInt ∧ (x1 i).toInt < 22) (j : S2000000x1.Idx) :
    ReadP.val_main_call1_v12 (F := Ideal) x1 j = 1#1 := by
  unfold ReadP.val_main_call1_v12
  refine Host.reduce_andi_of_all _ _ _ _ rfl (fun k => ?_) j
  obtain ⟨a, b, c, rfl⟩ : ∃ a b c, k = ix3 a b c := ⟨k 0, k 1, k 2, eq_ix3 k⟩
  obtain rfl : b = 0 := Subsingleton.elim _ _
  obtain rfl : c = 0 := Subsingleton.elim _ _
  rw [ReadP.val_main_call1_v11_apply, ReadP.val_main_call1_v7_apply, ReadP.val_main_call1_v10_apply,
    take_word_eq x1 h a]
  refine IntOp.andi_eq_one.2 ⟨IntOp.cmpi_sge.2 ?_, IntOp.cmpi_sle.2 ?_⟩
  · exact (h (ix1 a)).1
  · have := (h (ix1 a)).2
    show (x1 (ix1 a)).toInt ≤ (21#32 : BitVec 32).toInt
    have h21 : (21#32 : BitVec 32).toInt = 21 := by decide
    omega

/-- With the target word a class label, the take-along-axis stage at row `i` is the log-softmax at the target's class. -/
theorem take_stage (x0 : (⟨S2000000x22, .f32⟩ : BufTy).Contents (Elt Ideal)) (x1 : (⟨S2000000, .i32⟩ : BufTy).Contents (Elt Ideal))
    (h : ∀ i, 0 ≤ (x1 i).toInt ∧ (x1 i).toInt < 22) (i : Fin 2000000) :
    ReadP.val_main_v2 (F := Ideal) x0 x1 (ix2 i (0 : Fin 1)) = logSoftmax (row x0 i) (targetIdx x1 i) := by
  unfold ReadP.val_main_v2
  rw [select_apply_of_one _ _ _ _ (take_mask_one x1 h _)]
  unfold ReadP.val_main_call1_v13
  refine (GatherRead.take_along _ _ i 0).trans ?_
  rw [logSoftmax_stage, take_word]
  rfl

/-- The cross-entropy term: minus the sum over all rows, divided by the batch size. -/
theorem ce_stage (x0 : (⟨S2000000x22, .f32⟩ : BufTy).Contents (Elt Ideal)) (x1 : (⟨S2000000, .i32⟩ : BufTy).Contents (Elt Ideal))
    (h : ∀ i, 0 ≤ (x1 i).toInt ∧ (x1 i).toInt < 22) (y : S_.Idx) :
    ReadP.val_main_v5 (F := Ideal) x0 x1 y
      = -(Ideal.div (∑ i : Fin 2000000, logSoftmax (row x0 i) (targetIdx x1 i)) batch) := by
  -- the sum over the column's index set is the sum over the rows
  have hsum : ∑ j : S2000000x1.Idx, ReadP.val_main_v2 (F := Ideal) x0 x1 j
      = ∑ i : Fin 2000000, logSoftmax (row x0 i) (targetIdx x1 i) := by
    rw [sum_idx2]
    refine Finset.sum_congr rfl fun i _ => ?_
    rw [Fin.sum_univ_one]
    exact take_stage x0 x1 h i
  rw [ReadP.val_main_v5_apply, ReadP.val_main_v4_apply, ReadP.val_main_v3_apply, hsum, ReadP.val_main_cst_apply,
    ReadP.val_main_cst_0_apply, Ideal.hostNegf_def, Ideal.negf_def, Ideal.hostDivf_def]
  show -(Ideal.div (Ideal.ofBits .f32 0x00000000#32 + _) _) = _
  rw [Ideal.ofBits_zero_f32, zero_add]
  rfl

end Cert.ReferenceIdeal.RefValue

end
-- ==== Proof.RefNode.lean ====
/-
  The node-distance penalty mean.
-/
import proofs.«410296_j15333033246933_2_alg».proof.Proof.RefRead
import proofs.«410296_j15333033246933_2_alg».proof.Proof.Spec
import proofs.«410296_j15333033246933_2_alg».proof.Proof.RefSoftmax
import proofs.«410296_j15333033246933_2_alg».proof.Proof.GatherRef
import Idealize.ShloMosaic.PureOps.Ideal.Laws
import Idealize.ShloMosaic.Lib.Pipeline.Value
import Idealize.ShloMosaic.Lib.ValueIdx

noncomputable section

namespace Cert.ReferenceIdeal.RefValue

open Cert.ReferenceIdeal Cert.ReferenceIdeal.Gen Cert.PenaltyLoss Idealize.ShloMosaic Idealize.ShloMosaic.ValueIdx

/-- The indices of a vector of n entries are its coordinates. -/
def node_idxEquiv1 {n : Nat} : (⟨1, ![n]⟩ : Shape).Idx ≃ Fin n where
  toFun i := i 0
  invFun a := ix1 a
  left_inv i := (eq_ix1 i).symm
  right_inv _ := rfl

/-- A sum over the indices of a vector of n entries is the sum over its coordinates. -/
theorem node_sum_idx1 {M : Type*} [AddCommMonoid M] {n : Nat} (f : (⟨1, ![n]⟩ : Shape).Idx → M) :
    ∑ i, f i = ∑ a : Fin n, f (ix1 a) :=
  (Equiv.sum_comp (node_idxEquiv1 (n := n)).symm f).symm

/-- The column of normalised target words at row i: the target word, increased by 22 when negative. -/
theorem node_word_stage (x1 : (⟨S2000000, .i32⟩ : BufTy).Contents (Elt Ideal)) (i : Fin 2000000) :
    ReadP.val_main_v12 (F := Ideal) x1 (ix2 i (0 : Fin 1)) = wrapWord (BitVec.ofNat 32 22) (x1 (ix1 i)) := by
  have e : ReadP.idx_main_v12 (ix2 i (0 : Fin 1)) = ix1 i :=
    funext fun a => Fin.ext (by match a with | ⟨0, _⟩ => rfl)
  rw [ReadP.val_main_v12_apply, e, ReadP.val_main_v11_apply, ReadP.val_main_v8_apply, ReadP.val_main_v10_apply,
    ReadP.val_main_v7_apply, ReadP.val_main_v9_apply]
  rfl

/-- The row of the node table the gather reads for row i: the table's row at the target's class. -/
theorem node_row_stage (x1 : (⟨S2000000, .i32⟩ : BufTy).Contents (Elt Ideal)) (x2 : (⟨S22x22, .f32⟩ : BufTy).Contents (Elt Ideal))
    (i : Fin 2000000) (j : Fin 22) :
    ReadP.val_main_v13 (F := Ideal) x1 x2 (ix2 i j) = x2 (ix2 (targetIdx x1 i) j) := by
  unfold ReadP.val_main_v13
  rw [GatherRead.node_rows, node_word_stage]
  rfl

/-- The penalty of one row: the probabilities against the node table's row at the target's class. -/
theorem node_row_sum (x0 : (⟨S2000000x22, .f32⟩ : BufTy).Contents (Elt Ideal)) (x1 : (⟨S2000000, .i32⟩ : BufTy).Contents (Elt Ideal))
    (x2 : (⟨S22x22, .f32⟩ : BufTy).Contents (Elt Ideal)) (i : Fin 2000000) :
    ReadP.val_main_v15 (F := Ideal) x0 x1 x2 (ix1 i) = ∑ j : Fin 22, prob (row x0 i) j * x2 (ix2 (targetIdx x1 i) j) := by
  rw [ReadP.val_main_v15_apply]
  show Ideal.ofBits .f32 0x00000000#32 + _ = _
  rw [Ideal.ofBits_zero_f32, zero_add]
  refine Finset.sum_congr rfl fun k _ => ?_
  have e : ReadP.idx_main_v15 (ix1 i) k = ix2 i k :=
    funext fun a => Fin.ext (by match a with | ⟨0, _⟩ => rfl | ⟨1, _⟩ => rfl)
  rw [e, ReadP.val_main_v14_apply]
  show ReadP.val_main_v6 (F := Ideal) x0 (ix2 i k) * ReadP.val_main_v13 (F := Ideal) x1 x2 (ix2 i k) = _
  rw [prob_stage, node_row_stage]

/-- The node penalty: the sum over rows and classes of probability times the node distance from the target's class,
    divided by the batch size. -/
theorem node_stage (x0 : (⟨S2000000x22, .f32⟩ : BufTy).Contents (Elt Ideal)) (x1 : (⟨S2000000, .i32⟩ : BufTy).Contents (Elt Ideal))
    (x2 : (⟨S22x22, .f32⟩ : BufTy).Contents (Elt Ideal)) (y : S_.Idx) :
    ReadP.val_main_v17 (F := Ideal) x0 x1 x2 y
      = Ideal.div (∑ i : Fin 2000000, ∑ j : Fin 22, prob (row x0 i) j * x2 (ix2 (targetIdx x1 i) j)) batch := by
  rw [ReadP.val_main_v17_apply, ReadP.val_main_v16_apply]
  show Ideal.div (Ideal.ofBits .f32 0x00000000#32 + ∑ j : S2000000.Idx, ReadP.val_main_v15 (F := Ideal) x0 x1 x2 j) batch = _
  rw [Ideal.ofBits_zero_f32, zero_add]
  refine congrArg (Ideal.div · batch) ((node_sum_idx1 _).trans ?_)
  exact Finset.sum_congr rfl fun i _ => node_row_sum x0 x1 x2 i

end Cert.ReferenceIdeal.RefValue

end
-- ==== Proof.RefArea.lean ====
/-
  The area-distance penalty mean.
-/
import proofs.«410296_j15333033246933_2_alg».proof.Proof.RefRead
import proofs.«410296_j15333033246933_2_alg».proof.Proof.Spec
import proofs.«410296_j15333033246933_2_alg».proof.Proof.RefSoftmax
import proofs.«410296_j15333033246933_2_alg».proof.Proof.GatherRef
import Idealize.ShloMosaic.PureOps.Ideal.Laws
import Idealize.ShloMosaic.Lib.Pipeline.Value
import Idealize.ShloMosaic.Lib.ValueIdx

noncomputable section

namespace Cert.ReferenceIdeal.RefValue

open Cert.ReferenceIdeal Cert.ReferenceIdeal.Gen Cert.PenaltyLoss Idealize.ShloMosaic Idealize.ShloMosaic.ValueIdx

/-- The normalised target words as a column read, at row i, the normalised target word of row i. -/
theorem area_targetColumn (x1 : (⟨S2000000, .i32⟩ : BufTy).Contents (Elt Ideal)) (i : Fin 2000000) :
    ReadP.val_main_v23 (F := Ideal) x1 (ix2 i (0 : Fin 1)) = wrapWord (BitVec.ofNat 32 22) (x1 (ix1 i)) := by
  rw [ReadP.val_main_v23_apply]
  have e : ReadP.idx_main_v23 (ix2 i (0 : Fin 1)) = ix1 i :=
    funext fun a => Fin.ext (by match a with | ⟨0, _⟩ => rfl)
  rw [e]
  rfl

/-- The area word of row i's target class. -/
theorem area_targetArea (x1 : (⟨S2000000, .i32⟩ : BufTy).Contents (Elt Ideal)) (x4 : (⟨S22, .i32⟩ : BufTy).Contents (Elt Ideal))
    (i : Fin 2000000) : ReadP.val_main_v24 (F := Ideal) x1 x4 (ix1 i) = x4 (ix1 (targetIdx x1 i)) := by
  unfold ReadP.val_main_v24
  rw [GatherRead.area_of, area_targetColumn]
  rfl

/-- That word normalised by the extent 6, as a column, at row i. -/
theorem area_rowColumn (x1 : (⟨S2000000, .i32⟩ : BufTy).Contents (Elt Ideal)) (x4 : (⟨S22, .i32⟩ : BufTy).Contents (Elt Ideal))
    (i : Fin 2000000) :
    ReadP.val_main_v30 (F := Ideal) x1 x4 (ix2 i (0 : Fin 1)) = wrapWord (BitVec.ofNat 32 6) (x4 (ix1 (targetIdx x1 i))) := by
  rw [ReadP.val_main_v30_apply]
  have e : ReadP.idx_main_v30 (ix2 i (0 : Fin 1)) = ix1 i :=
    funext fun a => Fin.ext (by match a with | ⟨0, _⟩ => rfl)
  rw [e]
  show wrapWord (BitVec.ofNat 32 6) (ReadP.val_main_v24 (F := Ideal) x1 x4 (ix1 i)) = _
  rw [area_targetArea]

/-- The row of the area table the target class's area selects. -/
theorem area_rowsRead (x1 : (⟨S2000000, .i32⟩ : BufTy).Contents (Elt Ideal)) (x3 : (⟨S6x6, .f32⟩ : BufTy).Contents (Elt Ideal))
    (x4 : (⟨S22, .i32⟩ : BufTy).Contents (Elt Ideal)) (i : Fin 2000000) (a : Fin 6) :
    ReadP.val_main_v31 (F := Ideal) x1 x3 x4 (ix2 i a)
      = x3 (ix2 (indexOf 6 (by decide) (x4 (ix1 (targetIdx x1 i)))) a) := by
  unfold ReadP.val_main_v31
  rw [GatherRead.area_rows, area_rowColumn]
  rfl

/-- The 22 area words normalised by the extent 6, as a column, at class j. -/
theorem area_classColumn (x4 : (⟨S22, .i32⟩ : BufTy).Contents (Elt Ideal)) (j : Fin 22) :
    ReadP.val_main_v37 (F := Ideal) x4 (ix2 j (0 : Fin 1)) = wrapWord (BitVec.ofNat 32 6) (x4 (ix1 j)) := by
  rw [ReadP.val_main_v37_apply]
  have e : ReadP.idx_main_v37 (ix2 j (0 : Fin 1)) = ix1 j :=
    funext fun a => Fin.ext (by match a with | ⟨0, _⟩ => rfl)
  rw [e]
  rfl

/-- The area distance between row i's target class and class j. -/
theorem area_distRead (x1 : (⟨S2000000, .i32⟩ : BufTy).Contents (Elt Ideal)) (x3 : (⟨S6x6, .f32⟩ : BufTy).Contents (Elt Ideal))
    (x4 : (⟨S22, .i32⟩ : BufTy).Contents (Elt Ideal)) (i : Fin 2000000) (j : Fin 22) :
    ReadP.val_main_v38 (F := Ideal) x1 x3 x4 (ix2 i j)
      = x3 (ix2 (indexOf 6 (by decide) (x4 (ix1 (targetIdx x1 i)))) (areaIdx x4 j)) := by
  unfold ReadP.val_main_v38
  rw [GatherRead.area_cols, area_classColumn]
  show ReadP.val_main_v31 (F := Ideal) x1 x3 x4 (ix2 i (areaIdx x4 j)) = _
  rw [area_rowsRead]

/-- A sum over the indices of a vector is the sum over its one coordinate. -/
theorem area_sum_vecIdx {M : Type} [AddCommMonoid M] {n : Nat} (f : (⟨1, ![n]⟩ : Shape).Idx → M) :
    ∑ i, f i = ∑ a : Fin n, f (ix1 a) :=
  (Fintype.sum_equiv
    { toFun := fun a : Fin n => (ix1 a : (⟨1, ![n]⟩ : Shape).Idx), invFun := fun i => i 0,
      left_inv := fun _ => rfl, right_inv := fun i => (eq_ix1 i).symm }
    (fun a => f (ix1 a)) f (fun _ => rfl)).symm

/-- A row's penalty sum: over the classes, probability times area distance. -/
theorem area_rowSum (x0 : (⟨S2000000x22, .f32⟩ : BufTy).Contents (Elt Ideal)) (x1 : (⟨S2000000, .i32⟩ : BufTy).Contents (Elt Ideal))
    (x3 : (⟨S6x6, .f32⟩ : BufTy).Contents (Elt Ideal)) (x4 : (⟨S22, .i32⟩ : BufTy).Contents (Elt Ideal)) (i : Fin 2000000) :
    ReadP.val_main_v40 (F := Ideal) x0 x1 x3 x4 (ix1 i)
      = ∑ j : Fin 22, prob (row x0 i) j * x3 (ix2 (indexOf 6 (by decide) (x4 (ix1 (targetIdx x1 i)))) (areaIdx x4 j)) := by
  rw [ReadP.val_main_v40_apply]
  have z : ReadP.val_main_cst_11 (F := Ideal) (Shape.Idx.first h_S_) = 0 := Ideal.ofBits_zero_f32
  rw [z, zero_add]
  refine Finset.sum_congr rfl fun j _ => ?_
  have e : ReadP.idx_main_v40 (ix1 i) j = ix2 i j :=
    funext fun a => Fin.ext (by match a with | ⟨0, _⟩ => rfl | ⟨1, _⟩ => rfl)
  rw [e]
  show ReadP.val_main_v6 (F := Ideal) x0 (ix2 i j) * ReadP.val_main_v38 (F := Ideal) x1 x3 x4 (ix2 i j) = _
  rw [prob_stage, area_distRead]

/-- The area penalty: the sum over rows and classes of probability times the distance between the target class's area
    and the class's area, divided by the batch size. -/
theorem area_stage (x0 : (⟨S2000000x22, .f32⟩ : BufTy).Contents (Elt Ideal)) (x1 : (⟨S2000000, .i32⟩ : BufTy).Contents (Elt Ideal))
    (x3 : (⟨S6x6, .f32⟩ : BufTy).Contents (Elt Ideal)) (x4 : (⟨S22, .i32⟩ : BufTy).Contents (Elt Ideal)) (y : S_.Idx) :
    ReadP.val_main_v42 (F := Ideal) x0 x1 x3 x4 y
      = Ideal.div (∑ i : Fin 2000000, ∑ j : Fin 22,
          prob (row x0 i) j * x3 (ix2 (indexOf 6 (by decide) (x4 (ix1 (targetIdx x1 i)))) (areaIdx x4 j))) batch := by
  -- the host quotient is the exact quotient and the constant is the batch size; the scalar sum starts from 0 and runs
  -- over the rows, each row's entry being its own sum over the classes
  show Ideal.div (ReadP.val_main_v41 (F := Ideal) x0 x1 x3 x4 y) (Ideal.ofBits .f32 0x49F42400#32) = _
  rw [ReadP.val_main_v41_apply]
  have z : ReadP.val_main_cst_12 (F := Ideal) (Shape.Idx.first h_S_) = 0 := Ideal.ofBits_zero_f32
  rw [z, zero_add, area_sum_vecIdx]
  refine congrArg (fun s => Ideal.div s batch) (Finset.sum_congr rfl fun i _ => ?_)
  exact area_rowSum x0 x1 x3 x4 i

end Cert.ReferenceIdeal.RefValue

end
-- ==== Proof.RefValue.lean ====
/-
  The value of the indexed arrangement's program: with the target words class labels, its result is `lossRef` of its
  five arguments.  The last four operations weigh the node-penalty mean and the area-penalty mean by 1.0 and add them
  to the cross-entropy mean.
-/
import proofs.«410296_j15333033246933_2_alg».proof.Proof.RefTake
import proofs.«410296_j15333033246933_2_alg».proof.Proof.RefNode
import proofs.«410296_j15333033246933_2_alg».proof.Proof.RefArea
import proofs.«410296_j15333033246933_2_alg».proof.Proof.RefStage
import proofs.«410296_j15333033246933_2_alg».proof.Proof.Spec

noncomputable section

namespace Cert.ReferenceIdeal.RefValue

open Cert.ReferenceIdeal Cert.ReferenceIdeal.Gen Cert.PenaltyLoss Idealize.ShloMosaic Idealize.ShloMosaic.ValueIdx Idealize.ShloMosaic.TcCoe Idealize.SL.Sem

/-- The last stage is `lossRef`. -/
theorem loss_stage (x0 : (⟨S2000000x22, .f32⟩ : BufTy).Contents (Elt Ideal)) (x1 : (⟨S2000000, .i32⟩ : BufTy).Contents (Elt Ideal))
    (x2 : (⟨S22x22, .f32⟩ : BufTy).Contents (Elt Ideal)) (x3 : (⟨S6x6, .f32⟩ : BufTy).Contents (Elt Ideal)) (x4 : (⟨S22, .i32⟩ : BufTy).Contents (Elt Ideal))
    (h : ∀ i, 0 ≤ (x1 i).toInt ∧ (x1 i).toInt < 22) :
    ReadP.val_main_v46 (F := Ideal) x0 x1 x2 x3 x4 = fun _ => lossRef x0 x1 x2 x3 x4 := by
  funext y
  rw [ReadP.val_main_v46_apply, ReadP.val_main_v44_apply, ReadP.val_main_v45_apply, ReadP.val_main_v43_apply,
    ce_stage x0 x1 h y, node_stage x0 x1 x2 y, area_stage x0 x1 x3 x4 y, ReadP.val_main_cst_14_apply, ReadP.val_main_cst_15_apply]
  rfl

/-- The run's result term is `lossRef` of the launch contents of the five arguments. -/
theorem result_eq (m : (ℓ : Loc nD τ sig) → Buf (Elt Ideal) ℓ) (c : Dev nD)
    (h : ∀ i, 0 ≤ (m ((c.tc : Thread nD τ).loc main_arg1) i).toInt ∧ (m ((c.tc : Thread nD τ).loc main_arg1) i).toInt < 22) :
    Cert.ReferenceIdeal.ValueP.res_main_v46 m c
      = fun _ => lossRef (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) :=
  (ReadP.val_main_v46_eq m c).trans (loss_stage _ _ _ _ _ h)

end Cert.ReferenceIdeal.RefValue

end
-- ==== Proof.Domain.lean ====
/-
  The precondition, decoded: every float entry is a real number and every target word is a class label.

  The precondition is a conjunction of four whole-array tests, each an "and" over all entries of a one-bit array
  that starts from 1: for the three float arrays the entry's bit is  |x| < +inf,  for the targets it is
  0 <= t  and  t < 22  (signed).  The conjunction being 1 makes each of the four 1; an "and" over all entries that
  is 1 met only 1s; and an entry's bit being 1 says: the extended real x is neither +inf nor -inf (its absolute
  value max(x, -x) lies strictly below the top), respectively the word's signed value lies in [0, 22).
-/
import proofs.«410296_j15333033246933_2_alg».proof.Proof.Gen.Pre_finite_inputs
import proofs.«410296_j15333033246933_2_alg».proof.Proof.Spec
import proofs.«410296_j15333033246933_2_alg».proof.Proof.LibExtrema
import proofs.«410296_j15333033246933_2_alg».proof.Proof.LibAllOnes
import Idealize.ShloMosaic.Lib.ReduceAll

noncomputable section

namespace Cert.PenaltyLoss

open Idealize.ShloMosaic Idealize.ShloMosaic.ValueIdx

theorem inDomain_of_pre (L : SLogits.Idx → EReal) (T : STargets.Idx → BitVec 32) (Dn : SNode.Idx → EReal)
    (Da : SArea.Idx → EReal) (A : SAreaOf.Idx → BitVec 32)
    (h : Cert.Pre_finite_inputs.fn (F := Ideal) L T Dn Da A = fun _ => 1#1) : InDomain L T Dn Da := by
  -- the scalar result at its one index, the chain of operations laid open
  have h0 := congrFun h ValueIdx.ix0
  dsimp only [Cert.Pre_finite_inputs.fn, Cert.Pre_finite_inputs.fn_part1] at h0
  -- the four conjuncts: ((logits and node) and area) and targets
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_, fun i => ?_⟩
  · exact Cert.LibExtrema.real_of_abs_lt_inf (L i) (Host.reduce_andi_all _ _ _ _ _ h1 i)
  · exact Cert.LibExtrema.real_of_abs_lt_inf (Dn i) (Host.reduce_andi_all _ _ _ _ _ h2 i)
  · exact Cert.LibExtrema.real_of_abs_lt_inf (Da i) (Host.reduce_andi_all _ _ _ _ _ h3 i)
  · -- the entry's bit is the "and" of the two signed comparisons against the constants 0 and 22
    obtain ⟨ea, eb⟩ := IntOp.andi_eq_one.1 (Host.reduce_andi_all _ _ _ _ _ h4 i)
    have ha : (0#32 : BitVec 32).toInt ≤ (T i).toInt := IntOp.cmpi_sge.1 ea
    have hb : (T i).toInt < (22#32 : BitVec 32).toInt := IntOp.cmpi_slt.1 eb
    have z0 : (0#32 : BitVec 32).toInt = 0 := by decide
    have z22 : (22#32 : BitVec 32).toInt = 22 := by decide
    rw [z0] at ha
    rw [z22] at hb
    exact ⟨ha, hb⟩

end Cert.PenaltyLoss

end
-- ==== Proof.LibSoftmaxReal.lean ====
/-
  Real-number and extended-real facts both sides of the comparison use: coercions pushed through finite sums,
  quotients and the exponential; positivity of a sum of exponentials; the shift invariance of a softmax-weighted
  average; a sum over 32768 keys regrouped as 32 tiles of 1024; the maximum of finitely many reals is a real.
-/
import Idealize.ShloMosaic.PureOps.Ideal
import Mathlib.Analysis.SpecialFunctions.Exp
import Mathlib.Algebra.BigOperators.Fin
import Mathlib.Data.EReal.Basic

noncomputable section

namespace Cert.RealLemmas

open Idealize.ShloMosaic

/-- Over any finite set, the coercion of a real sum is the sum of the coercions: the empty sum is zero on both
    sides, and inserting one more key adds one more term, the coercion being additive. -/
theorem coe_sum_finset {K : Type} (S : Finset K) (f : K → ℝ) :
    (((∑ k ∈ S, f k) : ℝ) : EReal) = ∑ k ∈ S, ((f k : ℝ) : EReal) := by
  classical
  refine Finset.induction_on S ?_ ?_
  · rw [Finset.sum_empty, Finset.sum_empty, EReal.coe_zero]
  · intro a s ha ih
    rw [Finset.sum_insert ha, Finset.sum_insert ha, EReal.coe_add, ih]

/-- The coercion of a finite real sum is the sum of the coercions. -/
theorem coe_sum {K : Type} [Fintype K] (f : K → ℝ) : (((∑ k, f k) : ℝ) : EReal) = ∑ k, ((f k : ℝ) : EReal) :=
  coe_sum_finset Finset.univ f

/-- The ideal quotient of two reals with a nonzero divisor is the real quotient. -/
theorem div_coe (x y : ℝ) (hy : y ≠ 0) : Ideal.div (x : EReal) (y : EReal) = (((x / y) : ℝ) : EReal) := by
  rw [Ideal.div_coe hy, ← EReal.coe_mul, mul_one_div]

/-- The ideal exponential of a real is the real exponential. -/
theorem exp_coe (x : ℝ) : Ideal.exp (x : EReal) = ((Real.exp x : ℝ) : EReal) := rfl

/-- A nonempty finite sum of exponentials is positive. -/
theorem sum_exp_pos {K : Type} [Fintype K] [Nonempty K] (f : K → ℝ) : 0 < ∑ k, Real.exp (f k) :=
  Finset.sum_pos (fun k _ => Real.exp_pos (f k)) Finset.univ_nonempty

/-- Shift invariance: weights `exp (s k - M)` normalised by their sum average `v` exactly as the unshifted
    weights `exp (s k)` do, the common factor `exp (-M)` cancelling. -/
theorem softmax_shift {K : Type} [Fintype K] [Nonempty K] (s v : K → ℝ) (M : ℝ) :
    ∑ k, (Real.exp (s k - M) / ∑ j, Real.exp (s j - M)) * v k
      = (∑ k, Real.exp (s k) * v k) / ∑ k, Real.exp (s k) := by
  -- every shifted weight is the unshifted one times the common positive factor `exp (-M)`
  have hc : Real.exp (-M) ≠ 0 := (Real.exp_pos (-M)).ne'
  have hshift : ∀ k, Real.exp (s k - M) = Real.exp (s k) * Real.exp (-M) := fun k => by
    rw [sub_eq_add_neg, Real.exp_add]
  -- so the shifted normaliser is the unshifted one times the same factor
  have hden : ∑ j, Real.exp (s j - M) = (∑ j, Real.exp (s j)) * Real.exp (-M) := by
    rw [Finset.sum_mul]
    exact Finset.sum_congr rfl (fun j _ => hshift j)
  -- the factor cancels in each term, and the common denominator comes out of the sum
  rw [hden, Finset.sum_div]
  refine Finset.sum_congr rfl (fun k _ => ?_)
  rw [hshift k, mul_div_mul_right _ _ hc, div_mul_eq_mul_div]

/-- A sum over 32768 keys, taken tile by tile: 32 tiles of 1024 consecutive keys. -/
theorem sum_tiles (f : Fin 32768 → ℝ) :
    ∑ t : Fin 32, ∑ r : Fin 1024, f ⟨t.val * 1024 + r.val, by omega⟩ = ∑ k : Fin 32768, f k := by
  -- the double sum is a single sum over pairs (tile, offset) ...
  refine (Fintype.sum_prod_type'
    (fun (t : Fin 32) (r : Fin 1024) => f ⟨t.val * 1024 + r.val, by omega⟩)).symm.trans ?_
  -- ... and pairs correspond one to one to keys, the pair (t, r) to the key r + 1024 * t
  refine Fintype.sum_equiv (finProdFinEquiv : Fin 32 × Fin 1024 ≃ Fin (32 * 1024)) _ _ ?_
  rintro ⟨t, r⟩
  refine congrArg f (Fin.ext ?_)
  show t.val * 1024 + r.val = r.val + 1024 * t.val
  omega

/-- The running maximum from `⊥` over any finite family of reals is `⊥` or a real: it is `⊥` over the empty
    family, and one more real `x` turns `⊥` into `x` and a real `M` into the larger of `x` and `M`. -/
theorem fold_max_bot_or_coe {K : Type} (S : Finset K) (g : K → ℝ) :
    S.fold max (⊥ : EReal) (fun k => ((g k : ℝ) : EReal)) = ⊥
      ∨ ∃ M : ℝ, S.fold max (⊥ : EReal) (fun k => ((g k : ℝ) : EReal)) = (M : EReal) := by
  classical
  refine Finset.induction_on S ?_ ?_
  · exact Or.inl Finset.fold_empty
  · intro a s ha ih
    refine Or.inr ?_
    rw [Finset.fold_insert ha]
    rcases ih with h | ⟨M, h⟩
    · exact ⟨g a, by rw [h]; exact max_eq_left bot_le⟩
    · rcases le_total ((g a : ℝ) : EReal) (M : EReal) with hle | hle
      · exact ⟨M, by rw [h]; exact max_eq_right hle⟩
      · exact ⟨g a, by rw [h]; exact max_eq_left hle⟩

/-- Over a family with at least one member the running maximum is a real: split off one member `a`; the
    maximum over the rest is `⊥` or a real, and the larger of the real `g a` and either is a real. -/
theorem fold_max_insert_coe {K : Type} [DecidableEq K] (a : K) (s : Finset K) (ha : a ∉ s) (g : K → ℝ) :
    ∃ M : ℝ, (insert a s).fold max (⊥ : EReal) (fun k => ((g k : ℝ) : EReal)) = (M : EReal) := by
  rw [Finset.fold_insert ha]
  rcases fold_max_bot_or_coe s g with h | ⟨M, h⟩
  · exact ⟨g a, by rw [h]; exact max_eq_left bot_le⟩
  · rcases le_total ((g a : ℝ) : EReal) (M : EReal) with hle | hle
    · exact ⟨M, by rw [h]; exact max_eq_right hle⟩
    · exact ⟨g a, by rw [h]; exact max_eq_left hle⟩

/-- The running maximum from `⊥` over a nonempty finite family of reals is a real. -/
theorem fold_max_coe {n : ℕ} (f : Fin (n + 1) → ℝ) :
    ∃ M : ℝ, (Finset.univ : Finset (Fin (n + 1))).fold max (⊥ : EReal) (fun k => ((f k : ℝ) : EReal)) = (M : EReal) := by
  -- the whole index set is the index 0 together with the rest
  have huniv : (Finset.univ : Finset (Fin (n + 1))) = insert 0 (Finset.univ.erase 0) :=
    (Finset.insert_erase (Finset.mem_univ 0)).symm
  rw [huniv]
  exact fold_max_insert_coe 0 (Finset.univ.erase 0) (Finset.notMem_erase 0 Finset.univ) f

end Cert.RealLemmas

end
-- ==== Proof.Bridge.lean ====
/-
  The two arrangements of the loss agree on real inputs with in-range targets.

  Three observations carry the comparison.  A row of real logits has a real log-softmax at every class, and its
  probabilities are the real exponentials of those.  A target word in [0, 22) is left alone by the index
  normalisation, and its indicator is 1 at exactly the class it names, so a sum weighted by the indicator reads
  one entry.  The two float constants are 1 and 2000000.  What is left is an identity between means of real
  numbers: a mean of sums is the sum of the means, and a mean of negatives is the negative of the mean.
-/
import proofs.«410296_j15333033246933_2_alg».proof.Proof.Spec
import proofs.«410296_j15333033246933_2_alg».proof.Proof.LibSoftmaxReal
import proofs.«410296_j15333033246933_2_alg».proof.Proof.LibAllOnes
import Mathlib.Data.EReal.Operations
import Mathlib.Analysis.SpecialFunctions.Log.Basic

noncomputable section

namespace Cert.PenaltyLoss

open Idealize.ShloMosaic Idealize.ShloMosaic.ValueIdx Cert.RealLemmas

variable (L : SLogits.Idx → EReal) (T : STargets.Idx → BitVec 32) (Dn : SNode.Idx → EReal) (Da : SArea.Idx → EReal)
  (A : SAreaOf.Idx → BitVec 32)

/-! ## The two constants -/

/-- The pattern 0x3F800000 (exponent field 127, empty fraction) is the number 1. -/
theorem weight_eq : weight = 1 := by
  unfold weight
  simp [Ideal.ofBits, Ideal.ieee, -EReal.coe_mul]; norm_num

/-- The pattern 0x49F42400 (exponent field 147, fraction 0x742400) is 15625 * 2^7 = 2000000. -/
theorem batch_eq : batch = ((2000000 : ℝ) : EReal) := by
  unfold batch
  simp [Ideal.ofBits, Ideal.ieee, -EReal.coe_mul]; norm_num

/-! ## Index words in range -/

/-- A word that is not negative is left alone by the first step of indexing. -/
theorem wrapWord_of_nonneg (n w : BitVec 32) (h0 : 0 ≤ w.toInt) : wrapWord n w = w := by
  unfold wrapWord
  refine Scalar.select_wrap_of_nonneg (IntOp.cmpi_sge.2 ?_)
  rw [show (0#32 : BitVec 32).toInt = 0 from by decide]
  exact h0

/-- A word in `[0, n)` names the entry whose position is its own value. -/
theorem indexOf_val (n : ℕ) (hn : 0 < n) (w : BitVec 32) (h0 : 0 ≤ w.toInt) (h1 : w.toInt < n) :
    (indexOf n hn w).val = w.toInt.toNat := by
  unfold indexOf
  rw [wrapWord_of_nonneg _ _ h0]
  show min w.toInt.toNat (n - 1) = w.toInt.toNat
  omega

/-- A word that is not negative reads the same signed and unsigned. -/
theorem toInt_eq_toNat_of_nonneg (w : BitVec 32) (h0 : 0 ≤ w.toInt) : w.toInt = (w.toNat : Int) := by
  have hlt := w.isLt
  rw [BitVec.toInt_eq_toNat_cond] at h0 ⊢
  split_ifs at h0 ⊢ with hc
  · rfl
  · omega

/-- The indicator of a word in `[0, 22)` is 1 at the class the word names and 0 at every other class. -/
theorem hot_eq (w : BitVec 32) (h0 : 0 ≤ w.toInt) (h1 : w.toInt < 22) (k : Fin 22) :
    hot w k = if k = indexOf 22 (by decide) w then 1 else 0 := by
  have hv := indexOf_val 22 (by decide) w h0 (by exact_mod_cast h1)
  have hn := toInt_eq_toNat_of_nonneg w h0
  unfold hot
  refine if_congr ⟨fun hw => ?_, fun hk => ?_⟩ rfl rfl
  · -- the word is the numeral of k, so its value is k
    refine Fin.ext ?_
    rw [hv, hn, Int.toNat_natCast, hw, BitVec.toNat_ofNat]
    have := k.isLt
    omega
  · -- k is the word's value, and a word is determined by its value
    refine BitVec.eq_of_toNat_eq ?_
    rw [BitVec.toNat_ofNat, hk, hv, hn, Int.toNat_natCast]
    have := w.isLt
    omega

/-- So a sum weighted by that indicator reads the one entry the word names. -/
theorem sum_hot (w : BitVec 32) (h0 : 0 ≤ w.toInt) (h1 : w.toInt < 22) (f : Fin 22 → EReal) :
    ∑ k : Fin 22, hot w k * f k = f (indexOf 22 (by decide) w) := by
  rw [Finset.sum_eq_single (indexOf 22 (by decide) w)]
  · rw [hot_eq w h0 h1, if_pos rfl, one_mul]
  · intro k _ hk
    rw [hot_eq w h0 h1, if_neg hk, zero_mul]
  · intro hmem
    exact absurd (Finset.mem_univ _) hmem

/-! ## One real row -/

/-- The log-softmax of a row of reals is a real at every class: the largest logit M is a real, each shifted logit
    is a real, the 22 exponentials are positive reals and so is their sum S, whose logarithm is therefore a real. -/
theorem logSoftmax_real (x : Fin 22 → EReal) (hx : ∀ j, x j ≠ ⊤ ∧ x j ≠ ⊥) (j : Fin 22) :
    ∃ l : ℝ, logSoftmax x j = (l : EReal) := by
  have hr : ∀ k, x k = (((x k).toReal : ℝ) : EReal) := fun k => (EReal.coe_toReal (hx k).1 (hx k).2).symm
  obtain ⟨M, hM⟩ := fold_max_coe (fun k => (x k).toReal)
  have hmax : rowMax x = (M : EReal) := by
    unfold rowMax
    rw [show x = fun k => (((x k).toReal : ℝ) : EReal) from funext hr]
    exact hM
  have hsub : ∀ k, x k - rowMax x = (((x k).toReal - M : ℝ) : EReal) := fun k => by
    rw [hmax, hr k, EReal.toReal_coe, ← EReal.coe_sub]
  have hsum : ∑ k : Fin 22, Ideal.exp (x k - rowMax x)
      = ((∑ k : Fin 22, Real.exp ((x k).toReal - M) : ℝ) : EReal) := by
    rw [coe_sum]
    exact Finset.sum_congr rfl fun k _ => by rw [hsub k, exp_coe]
  have hpos : 0 < ∑ k : Fin 22, Real.exp ((x k).toReal - M) := sum_exp_pos _
  refine ⟨((x j).toReal - M) - Real.log (∑ k : Fin 22, Real.exp ((x k).toReal - M)), ?_⟩
  unfold logSoftmax
  rw [hsum, Ideal.log_coe, if_neg (not_le.2 hpos), hsub j, ← EReal.coe_sub]

/-- The same, naming the real. -/
theorem logSoftmax_coe (x : Fin 22 → EReal) (hx : ∀ j, x j ≠ ⊤ ∧ x j ≠ ⊥) (j : Fin 22) :
    logSoftmax x j = (((logSoftmax x j).toReal : ℝ) : EReal) := by
  obtain ⟨l, hl⟩ := logSoftmax_real x hx j
  rw [hl, EReal.toReal_coe]

/-- The probabilities of a row of reals are the real exponentials of its log-softmax. -/
theorem prob_coe (x : Fin 22 → EReal) (hx : ∀ j, x j ≠ ⊤ ∧ x j ≠ ⊥) (j : Fin 22) :
    prob x j = ((Real.exp (logSoftmax x j).toReal : ℝ) : EReal) := by
  unfold prob
  rw [logSoftmax_coe x hx j, exp_coe, EReal.toReal_coe]

/-! ## The identity between means -/

/-- Over any finite set of rows and a nonzero real batch size B: the mean of the negated a plus the mean of the
    p-weighted sums of dn + da is minus the mean of a, plus the mean of the p-weighted dn, plus that of da. -/
theorem means_eq {I : Type} [Fintype I] (B : ℝ) (hB : B ≠ 0) (a : I → ℝ) (p dn da : I → Fin 22 → ℝ) :
    Ideal.div (∑ i, ((-(a i) : ℝ) : EReal)) (B : EReal)
        + Ideal.div (∑ i, ∑ j, ((p i j : ℝ) : EReal) * (((dn i j : ℝ) : EReal) + ((da i j : ℝ) : EReal))) (B : EReal)
      = (-(Ideal.div (∑ i, ((a i : ℝ) : EReal)) (B : EReal))
          + Ideal.div (∑ i, ∑ j, ((p i j : ℝ) : EReal) * ((dn i j : ℝ) : EReal)) (B : EReal))
        + Ideal.div (∑ i, ∑ j, ((p i j : ℝ) : EReal) * ((da i j : ℝ) : EReal)) (B : EReal) := by
  -- each of the five sums is the coercion of the real sum
  have e1 : ∑ i, ((-(a i) : ℝ) : EReal) = ((∑ i, -(a i) : ℝ) : EReal) := (coe_sum _).symm
  have e2 : ∑ i, ∑ j, ((p i j : ℝ) : EReal) * (((dn i j : ℝ) : EReal) + ((da i j : ℝ) : EReal))
      = ((∑ i, ∑ j, p i j * (dn i j + da i j) : ℝ) : EReal) := by
    rw [coe_sum]
    refine Finset.sum_congr rfl fun i _ => ?_
    rw [coe_sum]
    exact Finset.sum_congr rfl fun j _ => by rw [EReal.coe_mul, EReal.coe_add]
  have e3 : ∑ i, ((a i : ℝ) : EReal) = ((∑ i, a i : ℝ) : EReal) := (coe_sum _).symm
  have e4 : ∑ i, ∑ j, ((p i j : ℝ) : EReal) * ((dn i j : ℝ) : EReal) = ((∑ i, ∑ j, p i j * dn i j : ℝ) : EReal) := by
    rw [coe_sum]
    refine Finset.sum_congr rfl fun i _ => ?_
    rw [coe_sum]
    exact Finset.sum_congr rfl fun j _ => by rw [EReal.coe_mul]
  have e5 : ∑ i, ∑ j, ((p i j : ℝ) : EReal) * ((da i j : ℝ) : EReal) = ((∑ i, ∑ j, p i j * da i j : ℝ) : EReal) := by
    rw [coe_sum]
    refine Finset.sum_congr rfl fun i _ => ?_
    rw [coe_sum]
    exact Finset.sum_congr rfl fun j _ => by rw [EReal.coe_mul]
  rw [e1, e2, e3, e4, e5, div_coe _ _ hB, div_coe _ _ hB, div_coe _ _ hB, div_coe _ _ hB, div_coe _ _ hB,
    ← EReal.coe_neg, ← EReal.coe_add, ← EReal.coe_add, ← EReal.coe_add]
  -- now an identity of real numbers
  refine congrArg _ ?_
  simp only [mul_add, Finset.sum_add_distrib, Finset.sum_neg_distrib]
  ring

/-! ## The two arrangements -/

theorem lossTiled_eq_lossRef (h : InDomain L T Dn Da) : lossTiled L T Dn Da A = lossRef L T Dn Da A := by
  have hrow : ∀ i, ∀ j, row L i j ≠ ⊤ ∧ row L i j ≠ ⊥ := fun i j => h.logits (ix2 i j)
  have ht0 : ∀ i, 0 ≤ (target T i).toInt := fun i => (h.targets (ix1 i)).1
  have ht1 : ∀ i, (target T i).toInt < 22 := fun i => (h.targets (ix1 i)).2
  have hn : ∀ i, Dn i = (((Dn i).toReal : ℝ) : EReal) := fun i => (EReal.coe_toReal (h.node i).1 (h.node i).2).symm
  have ha : ∀ i, Da i = (((Da i).toReal : ℝ) : EReal) := fun i => (EReal.coe_toReal (h.area i).1 (h.area i).2).symm
  -- a row's cross-entropy term reads the log-softmax at the target
  have hce : ∀ i, ceRow (row L i) (target T i)
      = ((-((logSoftmax (row L i) (targetIdx T i)).toReal) : ℝ) : EReal) := fun i => by
    unfold ceRow
    rw [sum_hot _ (ht0 i) (ht1 i), EReal.coe_neg, zero_sub]
    exact congrArg _ (logSoftmax_coe (row L i) (hrow i) _)
  -- a row's penalty reads the combined table's row at the target
  have hpen : ∀ i, penRow (comb Dn Da A) (row L i) (target T i)
      = ∑ j : Fin 22, ((Real.exp (logSoftmax (row L i) j).toReal : ℝ) : EReal)
          * ((((Dn (ix2 (targetIdx T i) j)).toReal : ℝ) : EReal)
            + (((Da (ix2 (areaIdx A (targetIdx T i)) (areaIdx A j))).toReal : ℝ) : EReal)) := fun i => by
    unfold penRow
    refine Finset.sum_congr rfl fun j _ => ?_
    rw [sum_hot _ (ht0 i) (ht1 i) (fun k => comb Dn Da A k j), prob_coe (row L i) (hrow i) j]
    unfold comb
    rw [weight_eq, one_mul, one_mul, ← hn, ← ha]
    rfl
  have hlsm : ∀ i, logSoftmax (row L i) (targetIdx T i)
      = (((logSoftmax (row L i) (targetIdx T i)).toReal : ℝ) : EReal) := fun i => logSoftmax_coe (row L i) (hrow i) _
  have hnode : ∀ i, ∑ j : Fin 22, prob (row L i) j * Dn (ix2 (targetIdx T i) j)
      = ∑ j : Fin 22, ((Real.exp (logSoftmax (row L i) j).toReal : ℝ) : EReal)
          * (((Dn (ix2 (targetIdx T i) j)).toReal : ℝ) : EReal) := fun i =>
    Finset.sum_congr rfl fun j _ => by rw [prob_coe (row L i) (hrow i) j, ← hn]
  have harea : ∀ i, ∑ j : Fin 22,
        prob (row L i) j * Da (ix2 (indexOf 6 (by decide) (A (ix1 (targetIdx T i)))) (areaIdx A j))
      = ∑ j : Fin 22, ((Real.exp (logSoftmax (row L i) j).toReal : ℝ) : EReal)
          * (((Da (ix2 (areaIdx A (targetIdx T i)) (areaIdx A j))).toReal : ℝ) : EReal) := fun i =>
    Finset.sum_congr rfl fun j _ => by
      rw [prob_coe (row L i) (hrow i) j, ← ha]
      rfl
  unfold lossTiled lossRef
  rw [weight_eq, batch_eq, one_mul, one_mul,
    Finset.sum_congr rfl (fun i _ => hce i), Finset.sum_congr rfl (fun i _ => hpen i),
    Finset.sum_congr rfl (fun i _ => hlsm i), Finset.sum_congr rfl (fun i _ => hnode i),
    Finset.sum_congr rfl (fun i _ => harea i)]
  exact means_eq 2000000 (by norm_num) _ _ _ _

end Cert.PenaltyLoss

end
-- ==== Proof.lean ====
/-
  The distance-penalty loss: a streaming one-pass kernel against its indexed reference, equal over the extended reals.

  Both programs take 2000000 rows of 22 logits, a target class per row, a 22 x 22 table of node distances, a 6 x 6
  table of area distances and the area of each class, and return one number: the mean cross-entropy of the softmax
  against the targets plus the mean, over rows, of the softmax-weighted distance from the target's class, where the
  distance of two classes is their node distance plus the distance of their areas.

  The kernel walks the batch in 400 tiles of 5000 rows. Per tile it forms the log-softmax of each row, selects the
  target's entries by multiplying with the indicator of the target (for the distance row, as a product of the
  indicator matrix with the combined table), and adds the tile's cross-entropy sum and penalty sum into lanes 0 and 1 of
  a 128-lane accumulator, which the first tile resets and the last tile writes out; the host then divides both lanes by
  the batch size and adds them. Its result is `lossTiled` of the arguments (Proof/KernelValue.lean), for any inputs.

  The reference indexes instead: it gathers the log-softmax, the node-distance row and the area-distance entries at the
  target, takes three means and combines them. Its result is `lossRef` of the arguments (Proof/RefValue.lean) once
  every target word is a class label, which is what keeps its gather of the log-softmax inside the row.

  On real inputs with targets in range the two numbers are equal (Proof/Bridge.lean): the indicator sums collapse to
  the indexed entries, the log-softmax and the probabilities of a row of reals are reals, and over the reals the
  products distribute over the sum of the two distance tables and the division over the sum of the means. The
  precondition says exactly that (Proof/Domain.lean). Nothing was rewritten by the idealization, so its conjunct is
  trivially true.
-/
import proofs.«410296_j15333033246933_2_alg».proof.Defs
import proofs.«410296_j15333033246933_2_alg».proof.Proof.Gen.Kernel
import proofs.«410296_j15333033246933_2_alg».proof.Proof.Gen.Kernel.Skeleton
import proofs.«410296_j15333033246933_2_alg».proof.Proof.Gen.Kernel.Launch
import proofs.«410296_j15333033246933_2_alg».proof.Proof.Gen.Kernel.Points
import proofs.«410296_j15333033246933_2_alg».proof.Proof.Gen.Kernel.Frame
import proofs.«410296_j15333033246933_2_alg».proof.Proof.Gen.KernelIdeal
import proofs.«410296_j15333033246933_2_alg».proof.Proof.Gen.KernelIdeal.Skeleton
import proofs.«410296_j15333033246933_2_alg».proof.Proof.Gen.KernelIdeal.Launch
import proofs.«410296_j15333033246933_2_alg».proof.Proof.Gen.KernelIdeal.Points
import proofs.«410296_j15333033246933_2_alg».proof.Proof.Gen.KernelIdeal.Frame
import proofs.«410296_j15333033246933_2_alg».proof.Proof.Gen.ReferenceIdeal
import proofs.«410296_j15333033246933_2_alg».proof.Proof.Gen.Pre_finite_inputs
import proofs.«410296_j15333033246933_2_alg».proof.Proof.KernelValue
import proofs.«410296_j15333033246933_2_alg».proof.Proof.RefValue
import proofs.«410296_j15333033246933_2_alg».proof.Proof.Domain
import proofs.«410296_j15333033246933_2_alg».proof.Proof.Bridge
import Idealize.ShloMosaic.Adequacy
import Idealize.ShloMosaic.Init

noncomputable section

namespace Cert.Proof

open Idealize.ShloMosaic Idealize.SL.Sem Cert.PenaltyLoss

/-- The word-level kernel runs to the end and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the five arguments, the kernel ends at the one-hot arrangement of the loss and the
    reference at the indexed one, and under the precondition these are the same number. -/
theorem algebraic : Cert.algebraic_KernelIdeal_ReferenceIdeal := by
  intro m ρ m' ρ' hpre hagree
  refine ⟨_, Cert.KernelIdeal.LossValue.run m ρ, ?_⟩
  refine (θ_run Cert.ReferenceIdeal.defs _ _).mono (fun _ h c => ⟨(h c).1.trans ?_, (h c).2⟩)
    (Cert.ReferenceIdeal.ValueP.run (F := Ideal) m' ρ')
  have hd := inDomain_of_pre _ _ _ _ _ (hpre c)
  have ht : ∀ i, 0 ≤ (m' ((c.tc : Thread Cert.ReferenceIdeal.nD Cert.ReferenceIdeal.τ).loc Cert.ReferenceIdeal.main_arg1) i).toInt
      ∧ (m' ((c.tc : Thread Cert.ReferenceIdeal.nD Cert.ReferenceIdeal.τ).loc Cert.ReferenceIdeal.main_arg1) i).toInt < 22 := by
    rw [(hagree c).2.1]; exact hd.targets
  rw [Cert.ReferenceIdeal.RefValue.result_eq m' c ht, (hagree c).1, (hagree c).2.1, (hagree c).2.2.1, (hagree c).2.2.2.1,
    (hagree c).2.2.2.2]
  funext _
  exact (lossTiled_eq_lossRef _ _ _ _ _ hd).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
